-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S500000 : Shape := ⟨1, ![500000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_arg8 : FVec F S128x128 .f32) (main_arg9 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S128x128 .f32) (main_arg5 : FVec F S128 .f32) (main_arg6 : FVec F S128x128 .f32) (main_arg7 : FVec F S128 .f32) (main_arg8 : FVec F S128x128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S50000x128 .f32) (main_arg1 : FVec F S50000x128 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : IVec S500000 32) (main_arg11 : IVec S500000 32) (main_arg12 : IVec S500000 32) (main_arg13 : IVec S500000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S50000x128 : Shape := ⟨2, ![50000, 128]⟩
abbrev S128x128 : Shape := ⟨2, ![128, 128]⟩
abbrev S128 : Shape := ⟨1, ![128]⟩
abbrev S500000 : Shape := ⟨1, ![500000]⟩
abbrev S_ : Shape := ⟨0, ![]⟩
abbrev S50000 : Shape := ⟨1, ![50000]⟩
abbrev S500000x1 : Shape := ⟨2, ![500000, 1]⟩
abbrev S50000x1 : Shape := ⟨2, ![50000, 1]⟩
abbrev S1x128 : Shape := ⟨2, ![1, 128]⟩
abbrev S2000x128 : Shape := ⟨2, ![2000, 128]⟩
abbrev S2000x1 : Shape := ⟨2, ![2000, 1]⟩
abbrev S500000x128 : Shape := ⟨2, ![500000, 128]⟩

abbrev nBuf : Space → Nat
  | .hbm => 88
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S500000, .i32⟩
  | .hbm, ⟨11, _⟩ => ⟨S500000, .i32⟩
  | .hbm, ⟨12, _⟩ => ⟨S500000, .i32⟩
  | .hbm, ⟨13, _⟩ => ⟨S500000, .i32⟩
  | .hbm, ⟨14, _⟩ => ⟨S_, .f32⟩
  | .hbm, ⟨15, _⟩ => ⟨S500000, .f32⟩
  | .hbm, ⟨16, _⟩ => ⟨S_, .f32⟩
  | .hbm, ⟨17, _⟩ => ⟨S50000, .f32⟩
  | .hbm, ⟨18, _⟩ => ⟨S500000x1, .i32⟩
  | .hbm, ⟨19, _⟩ => ⟨S50000, .f32⟩
  | .hbm, ⟨20, _⟩ => ⟨S_, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S500000x1, .i32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S500000x1, .i32⟩
  | .hbm, ⟨35, _⟩ => ⟨S50000, .f32⟩
  | .hbm, ⟨36, _⟩ => ⟨S_, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S_, .f32⟩
  | .hbm, ⟨41, _⟩ => ⟨S50000, .f32⟩
  | .hbm, ⟨42, _⟩ => ⟨S500000x1, .i32⟩
  | .hbm, ⟨43, _⟩ => ⟨S50000, .f32⟩
  | .hbm, ⟨44, _⟩ => ⟨S_, .f32⟩
  | .hbm, ⟨45, _⟩ => ⟨S_, .f32⟩
  | .hbm, ⟨46, _⟩ => ⟨S50000, .f32⟩
  | .hbm, ⟨47, _⟩ => ⟨S50000, .f32⟩
  | .hbm, ⟨48, _⟩ => ⟨S50000, .f32⟩
  | .hbm, ⟨49, _⟩ => ⟨S50000x1, .f32⟩
  | .hbm, ⟨50, _⟩ => ⟨S50000, .f32⟩
  | .hbm, ⟨51, _⟩ => ⟨S50000x1, .f32⟩
  | .hbm, ⟨52, _⟩ => ⟨S50000, .f32⟩
  | .hbm, ⟨53, _⟩ => ⟨S50000x1, .f32⟩
  | .hbm, ⟨54, _⟩ => ⟨S50000, .f32⟩
  | .hbm, ⟨55, _⟩ => ⟨S50000x1, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S50000x128, .f32⟩
  | .hbm, ⟨60, _⟩ => ⟨S_, .i32⟩
  | .hbm, ⟨61, _⟩ => ⟨S500000, .i32⟩
  | .hbm, ⟨62, _⟩ => ⟨S500000, .i1⟩
  | .hbm, ⟨63, _⟩ => ⟨S_, .i32⟩
  | .hbm, ⟨64, _⟩ => ⟨S500000, .i32⟩
  | .hbm, ⟨65, _⟩ => ⟨S500000, .i32⟩
  | .hbm, ⟨66, _⟩ => ⟨S500000, .i32⟩
  | .hbm, ⟨67, _⟩ => ⟨S500000x1, .i32⟩
  | .hbm, ⟨68, _⟩ => ⟨S500000x128, .f32⟩
  | .hbm, ⟨69, _⟩ => ⟨S_, .f32⟩
  | .hbm, ⟨70, _⟩ => ⟨S50000x128, .f32⟩
  | .hbm, ⟨71, _⟩ => ⟨S500000x1, .i32⟩
  | .hbm, ⟨72, _⟩ => ⟨S50000x128, .f32⟩
  | .hbm, ⟨73, _⟩ => ⟨S50000x128, .f32⟩
  | .hbm, ⟨74, _⟩ => ⟨S_, .i32⟩
  | .hbm, ⟨75, _⟩ => ⟨S500000, .i32⟩
  | .hbm, ⟨76, _⟩ => ⟨S500000, .i1⟩
  | .hbm, ⟨77, _⟩ => ⟨S_, .i32⟩
  | .hbm, ⟨78, _⟩ => ⟨S500000, .i32⟩
  | .hbm, ⟨79, _⟩ => ⟨S500000, .i32⟩
  | .hbm, ⟨80, _⟩ => ⟨S500000, .i32⟩
  | .hbm, ⟨81, _⟩ => ⟨S500000x1, .i32⟩
  | .hbm, ⟨82, _⟩ => ⟨S500000x128, .f32⟩
  | .hbm, ⟨83, _⟩ => ⟨S_, .f32⟩
  | .hbm, ⟨84, _⟩ => ⟨S50000x128, .f32⟩
  | .hbm, ⟨85, _⟩ => ⟨S500000x1, .i32⟩
  | .hbm, ⟨86, _⟩ => ⟨S50000x128, .f32⟩
  | .hbm, ⟨87, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x1, .f32⟩
  | .local _ .vmem, ⟨5, _⟩ => ⟨S2000x1, .f32⟩
  | .local _ .vmem, ⟨6, _⟩ => ⟨S128x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x1, .f32⟩
  | .local _ .vmem, ⟨12, _⟩ => ⟨S2000x1, .f32⟩
  | .local _ .vmem, ⟨13, _⟩ => ⟨S1x128, .f32⟩
  | .local _ .vmem, ⟨14, _⟩ => ⟨S2000x1, .f32⟩
  | .local _ .vmem, ⟨15, _⟩ => ⟨S2000x1, .f32⟩
  | .local _ .vmem, ⟨16, _⟩ => ⟨S128x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x1, .f32⟩
  | .local _ .vmem, ⟨22, _⟩ => ⟨S2000x1, .f32⟩
  | .local _ .vmem, ⟨23, _⟩ => ⟨S1x128, .f32⟩
  | .local _ .vmem, ⟨24, _⟩ => ⟨S2000x128, .f32⟩
  | .local _ .vmem, ⟨25, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v4 : Ref sig .tc := ⟨.hbm, 23, rfl⟩
abbrev main_cst_2 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_3 : Ref sig .tc := ⟨.hbm, 28, rfl⟩
abbrev main_call1_v0 : Ref sig .tc := ⟨.hbm, 29, rfl⟩
abbrev main_call1_v1 : Ref sig .tc := ⟨.hbm, 30, rfl⟩
abbrev main_v8 : Ref sig .tc := ⟨.hbm, 31, rfl⟩
abbrev main_cst_4 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_cst_5 : Ref sig .tc := ⟨.hbm, 36, rfl⟩
abbrev main_call2_v0 : Ref sig .tc := ⟨.hbm, 37, rfl⟩
abbrev main_call2_v1 : Ref sig .tc := ⟨.hbm, 38, rfl⟩
abbrev main_v12 : Ref sig .tc := ⟨.hbm, 39, rfl⟩
abbrev main_cst_6 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_cst_7 : Ref sig .tc := ⟨.hbm, 44, rfl⟩
abbrev main_call3_v0 : Ref sig .tc := ⟨.hbm, 45, rfl⟩
abbrev main_call3_v1 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_c : Ref sig .tc := ⟨.hbm, 60, rfl⟩
abbrev main_v29 : Ref sig .tc := ⟨.hbm, 61, rfl⟩
abbrev main_v30 : Ref sig .tc := ⟨.hbm, 62, rfl⟩
abbrev main_c_8 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_cst_9 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_c_10 : Ref sig .tc := ⟨.hbm, 74, rfl⟩
abbrev main_v40 : Ref sig .tc := ⟨.hbm, 75, rfl⟩
abbrev main_v41 : Ref sig .tc := ⟨.hbm, 76, rfl⟩
abbrev main_c_11 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_cst_12 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem3_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S500000 : S_.BroadcastsInDim S500000 (![] : Fin 0 → Fin S500000.rank)
  bcast_S_S50000 : S_.BroadcastsInDim S50000 (![] : Fin 0 → Fin S50000.rank)
  bcast_S500000_S500000x1_0 : S500000.BroadcastsInDim S500000x1 (![0] : Fin 1 → Fin S500000x1.rank)
  bcast_S50000_S50000x1_0 : S50000.BroadcastsInDim S50000x1 (![0] : Fin 1 → Fin S50000x1.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bcast_S_S50000x128 : S_.BroadcastsInDim S50000x128 (![] : Fin 0 → Fin S50000x128.rank)
  shapeCasts_S2000x128_S2000x128 : S2000x128.ShapeCasts S2000x128
  scatter_S50000_S500000x1_S500000_n_0_0_1_wf : ScatterDims.WF S50000 S500000x1 S500000 [] [0] [0] 1
  dot_S2000x128_S128x128_S2000x128_1_0_0_1_n_n_wf : DotDims.WF S2000x128 S128x128 S2000x128 [1] [0] [0] [1] [] []
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S50000x1.size a
  hwx0_3 : ∀ i : grid0.Coords, EltTy.bits .f32 = 32 ∨ (Rect.block (s := S50000x1) S2000x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S50000x1.size a
  hwx1_3 : ∀ i : grid1.Coords, EltTy.bits .f32 = 32 ∨ (Rect.block (s := S50000x1) S2000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)

variable [Facts₀]

def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v49) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S500000 : Shape := ⟨1, ![500000]⟩
abbrev S1x128 : Shape := ⟨2, ![1, 128]⟩
abbrev S_ : Shape := ⟨0, ![]⟩
abbrev S50000 : Shape := ⟨1, ![50000]⟩
abbrev S500000x1 : Shape := ⟨2, ![500000, 1]⟩
abbrev S50000x1 : Shape := ⟨2, ![50000, 1]⟩
abbrev S500000x128 : Shape := ⟨2, ![500000, 128]⟩

abbrev nBuf : Space → Nat
  | .hbm => 153
  | .vmem => 0
  | .smem => 0
  | _ => 0

abbrev hbmTy0_0 (i : Nat) : BufTy := match i % 128 with
  | 0 => ⟨S50000x128, .f32⟩
  | 1 => ⟨S50000x128, .f32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S500000, .i32⟩
  | 11 => ⟨S500000, .i32⟩
  | 12 => ⟨S500000, .i32⟩
  | 13 => ⟨S500000, .i32⟩
  | 14 => ⟨S50000x128, .f32⟩
  | 15 => ⟨S1x128, .f32⟩
  | 16 => ⟨S50000x128, .f32⟩
  | 17 => ⟨S50000x128, .f32⟩
  | 18 => ⟨S_, .f32⟩
  | 19 => ⟨S500000, .f32⟩
  | 20 => ⟨S_, .f32⟩
  | 21 => ⟨S50000, .f32⟩
  | 22 => ⟨S500000x1, .i32⟩
  | 23 => ⟨S50000, .f32⟩
  | 24 => ⟨S_, .f32⟩
  | 25 => ⟨S_, .f32⟩
  | 26 => ⟨S50000, .f32⟩
  | 27 => ⟨S50000, .f32⟩
  | 28 => ⟨S_, .f32⟩
  | 29 => ⟨S50000, .f32⟩
  | 30 => ⟨S500000x1, .i32⟩
  | 31 => ⟨S50000, .f32⟩
  | 32 => ⟨S_, .f32⟩
  | 33 => ⟨S_, .f32⟩
  | 34 => ⟨S50000, .f32⟩
  | 35 => ⟨S50000, .f32⟩
  | 36 => ⟨S50000, .f32⟩
  | 37 => ⟨S50000x1, .f32⟩
  | 38 => ⟨S50000x128, .f32⟩
  | 39 => ⟨S50000x128, .f32⟩
  | 40 => ⟨S50000x128, .f32⟩
  | 41 => ⟨S_, .i32⟩
  | 42 => ⟨S500000, .i32⟩
  | 43 => ⟨S500000, .i1⟩
  | 44 => ⟨S_, .i32⟩
  | 45 => ⟨S500000, .i32⟩
  | 46 => ⟨S500000, .i32⟩
  | 47 => ⟨S500000, .i32⟩
  | 48 => ⟨S500000x1, .i32⟩
  | 49 => ⟨S500000x128, .f32⟩
  | 50 => ⟨S_, .f32⟩
  | 51 => ⟨S50000x128, .f32⟩
  | 52 => ⟨S500000x1, .i32⟩
  | 53 => ⟨S50000x128, .f32⟩
  | 54 => ⟨S50000, .f32⟩
  | 55 => ⟨S50000x1, .f32⟩
  | 56 => ⟨S50000x128, .f32⟩
  | 57 => ⟨S50000x128, .f32⟩
  | 58 => ⟨S1x128, .f32⟩
  | 59 => ⟨S50000x128, .f32⟩
  | 60 => ⟨S50000x128, .f32⟩
  | 61 => ⟨S_, .f32⟩
  | 62 => ⟨S50000x128, .f32⟩
  | 63 => ⟨S50000x128, .f32⟩
  | 64 => ⟨S_, .f32⟩
  | 65 => ⟨S500000, .f32⟩
  | 66 => ⟨S_, .f32⟩
  | 67 => ⟨S50000, .f32⟩
  | 68 => ⟨S500000x1, .i32⟩
  | 69 => ⟨S50000, .f32⟩
  | 70 => ⟨S_, .f32⟩
  | 71 => ⟨S_, .f32⟩
  | 72 => ⟨S50000, .f32⟩
  | 73 => ⟨S50000, .f32⟩
  | 74 => ⟨S_, .f32⟩
  | 75 => ⟨S50000, .f32⟩
  | 76 => ⟨S500000x1, .i32⟩
  | 77 => ⟨S50000, .f32⟩
  | 78 => ⟨S_, .f32⟩
  | 79 => ⟨S_, .f32⟩
  | 80 => ⟨S50000, .f32⟩
  | 81 => ⟨S50000, .f32⟩
  | 82 => ⟨S50000, .f32⟩
  | 83 => ⟨S50000x1, .f32⟩
  | 84 => ⟨S50000x128, .f32⟩
  | 85 => ⟨S50000x128, .f32⟩
  | 86 => ⟨S50000x128, .f32⟩
  | 87 => ⟨S_, .i32⟩
  | 88 => ⟨S500000, .i32⟩
  | 89 => ⟨S500000, .i1⟩
  | 90 => ⟨S_, .i32⟩
  | 91 => ⟨S500000, .i32⟩
  | 92 => ⟨S500000, .i32⟩
  | 93 => ⟨S500000, .i32⟩
  | 94 => ⟨S500000x1, .i32⟩
  | 95 => ⟨S500000x128, .f32⟩
  | 96 => ⟨S_, .f32⟩
  | 97 => ⟨S50000x128, .f32⟩
  | 98 => ⟨S500000x1, .i32⟩
  | 99 => ⟨S50000x128, .f32⟩
  | 100 => ⟨S50000, .f32⟩
  | 101 => ⟨S50000x1, .f32⟩
  | 102 => ⟨S50000x128, .f32⟩
  | 103 => ⟨S50000x128, .f32⟩
  | 104 => ⟨S1x128, .f32⟩
  | 105 => ⟨S50000x128, .f32⟩
  | 106 => ⟨S50000x128, .f32⟩
  | 107 => ⟨S_, .f32⟩
  | 108 => ⟨S50000x128, .f32⟩
  | 109 => ⟨S50000x128, .f32⟩
  | 110 => ⟨S_, .f32⟩
  | 111 => ⟨S500000, .f32⟩
  | 112 => ⟨S_, .f32⟩
  | 113 => ⟨S50000, .f32⟩
  | 114 => ⟨S500000x1, .i32⟩
  | 115 => ⟨S50000, .f32⟩
  | 116 => ⟨S_, .f32⟩
  | 117 => ⟨S_, .f32⟩
  | 118 => ⟨S50000, .f32⟩
  | 119 => ⟨S50000, .f32⟩
  | 120 => ⟨S_, .f32⟩
  | 121 => ⟨S50000, .f32⟩
  | 122 => ⟨S500000x1, .i32⟩
  | 123 => ⟨S50000, .f32⟩
  | 124 => ⟨S_, .f32⟩
  | 125 => ⟨S_, .f32⟩
  | 126 => ⟨S50000, .f32⟩
  | 127 => ⟨S50000, .f32⟩
  | _ => ⟨S50000x128, .f32⟩

abbrev hbmTy0_1 (i : Nat) : BufTy := match i % 128 with
  | 0 => ⟨S50000, .f32⟩
  | 1 => ⟨S50000x1, .f32⟩
  | 2 => ⟨S50000x128, .f32⟩
  | 3 => ⟨S50000x128, .f32⟩
  | 4 => ⟨S50000x128, .f32⟩
  | 5 => ⟨S_, .i32⟩
  | 6 => ⟨S500000, .i32⟩
  | 7 => ⟨S500000, .i1⟩
  | 8 => ⟨S_, .i32⟩
  | 9 => ⟨S500000, .i32⟩
  | 10 => ⟨S500000, .i32⟩
  | 11 => ⟨S500000, .i32⟩
  | 12 => ⟨S500000x1, .i32⟩
  | 13 => ⟨S500000x128, .f32⟩
  | 14 => ⟨S_, .f32⟩
  | 15 => ⟨S50000x128, .f32⟩
  | 16 => ⟨S500000x1, .i32⟩
  | 17 => ⟨S50000x128, .f32⟩
  | 18 => ⟨S50000, .f32⟩
  | 19 => ⟨S50000x1, .f32⟩
  | 20 => ⟨S50000x128, .f32⟩
  | 21 => ⟨S50000x128, .f32⟩
  | 22 => ⟨S1x128, .f32⟩
  | 23 => ⟨S50000x128, .f32⟩
  | 24 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_call0_v0 : Ref sig .tc := ⟨.hbm, 25, rfl⟩
abbrev main_call0_v1 : Ref sig .tc := ⟨.hbm, 26, rfl⟩
abbrev main_v8 : Ref sig .tc := ⟨.hbm, 27, rfl⟩
abbrev main_cst_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_3 : Ref sig .tc := ⟨.hbm, 32, rfl⟩
abbrev main_call1_v0 : Ref sig .tc := ⟨.hbm, 33, rfl⟩
abbrev main_call1_v1 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_c : Ref sig .tc := ⟨.hbm, 41, rfl⟩
abbrev main_v18 : Ref sig .tc := ⟨.hbm, 42, rfl⟩
abbrev main_v19 : Ref sig .tc := ⟨.hbm, 43, rfl⟩
abbrev main_c_4 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_5 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_call2_cst : Ref sig .tc := ⟨.hbm, 61, rfl⟩
abbrev main_call2_v0 : Ref sig .tc := ⟨.hbm, 62, rfl⟩
abbrev main_v35 : Ref sig .tc := ⟨.hbm, 63, rfl⟩
abbrev main_cst_6 : Ref sig .tc := ⟨.hbm, 64, rfl⟩
abbrev main_v36 : Ref sig .tc := ⟨.hbm, 65, rfl⟩
abbrev main_cst_7 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_8 : Ref sig .tc := ⟨.hbm, 70, rfl⟩
abbrev main_call3_v0 : Ref sig .tc := ⟨.hbm, 71, rfl⟩
abbrev main_call3_v1 : Ref sig .tc := ⟨.hbm, 72, rfl⟩
abbrev main_v40 : Ref sig .tc := ⟨.hbm, 73, rfl⟩
abbrev main_cst_9 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_cst_10 : Ref sig .tc := ⟨.hbm, 78, rfl⟩
abbrev main_call4_v0 : Ref sig .tc := ⟨.hbm, 79, rfl⟩
abbrev main_call4_v1 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_c_11 : Ref sig .tc := ⟨.hbm, 87, rfl⟩
abbrev main_v50 : Ref sig .tc := ⟨.hbm, 88, rfl⟩
abbrev main_v51 : Ref sig .tc := ⟨.hbm, 89, rfl⟩
abbrev main_c_12 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_13 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_call5_cst : Ref sig .tc := ⟨.hbm, 107, rfl⟩
abbrev main_call5_v0 : Ref sig .tc := ⟨.hbm, 108, rfl⟩
abbrev main_v67 : Ref sig .tc := ⟨.hbm, 109, rfl⟩
abbrev main_cst_14 : Ref sig .tc := ⟨.hbm, 110, rfl⟩
abbrev main_v68 : Ref sig .tc := ⟨.hbm, 111, rfl⟩
abbrev main_cst_15 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_cst_16 : Ref sig .tc := ⟨.hbm, 116, rfl⟩
abbrev main_call6_v0 : Ref sig .tc := ⟨.hbm, 117, rfl⟩
abbrev main_call6_v1 : Ref sig .tc := ⟨.hbm, 118, rfl⟩
abbrev main_v72 : Ref sig .tc := ⟨.hbm, 119, rfl⟩
abbrev main_cst_17 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_cst_18 : Ref sig .tc := ⟨.hbm, 124, rfl⟩
abbrev main_call7_v0 : Ref sig .tc := ⟨.hbm, 125, rfl⟩
abbrev main_call7_v1 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_c_19 : Ref sig .tc := ⟨.hbm, 133, rfl⟩
abbrev main_v82 : Ref sig .tc := ⟨.hbm, 134, rfl⟩
abbrev main_v83 : Ref sig .tc := ⟨.hbm, 135, rfl⟩
abbrev main_c_20 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_cst_21 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S500000 : S_.BroadcastsInDim S500000 (![] : Fin 0 → Fin S500000.rank)
  bcast_S_S50000 : S_.BroadcastsInDim S50000 (![] : Fin 0 → Fin S50000.rank)
  bcast_S500000_S500000x1_0 : S500000.BroadcastsInDim S500000x1 (![0] : Fin 1 → Fin S500000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  dot_S50000x128_S128x128_S50000x128_1_0_0_1_n_n_wf : DotDims.WF S50000x128 S128x128 S50000x128 [1] [0] [0] [1] [] []
  scatter_S50000_S500000x1_S500000_n_0_0_1_wf : ScatterDims.WF S50000 S500000x1 S500000 [] [0] [0] 1
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf

class Facts : Prop extends Facts₀ where

variable [Facts]
-- ==== Proof.Spec.lean ====
/-
  The mathematics both programs compute, stated once over literal shapes and extended reals.

  A two-layer graph convolution over a bipartite graph (50000 nodes on each side, 128 features):
  every dense stage is a row-wise affine map followed by a product with a 128 x 128 weight
  matrix; between the dense stages a row gather and a segment sum move rows along edges.  The
  three dense stages are given here index by index.  Row `r` of a stage depends only on row `r`
  of its inputs, which is what lets a program compute it tile by tile over the rows.
-/
import Idealize.ShloMosaic.PureOps.Ideal
import Idealize.ShloMosaic.Lib.ValueIdx

noncomputable section

namespace Cert.Spec

open Idealize.ShloMosaic Idealize.ShloMosaic.ValueIdx

/-- Node features: 50000 rows of 128. -/
abbrev Nodes : Shape := ⟨2, ![50000, 128]⟩
/-- A weight matrix. -/
abbrev Wgt : Shape := ⟨2, ![128, 128]⟩
/-- A bias, as one row. -/
abbrev Row : Shape := ⟨2, ![1, 128]⟩
/-- One scale per node, as a column. -/
abbrev Col : Shape := ⟨2, ![50000, 1]⟩

/-- The float zero the rectifier compares with. -/
def zeroF : EReal := Ideal.ofBits .f32 0x00000000#32

/-- First dense stage at row `r`, column `j`: embed the row (`x · We + be`), scale it by the
    node's factor `d r`, and project with `W1`. -/
def feat1At (x : Nodes.Idx → EReal) (We : Wgt.Idx → EReal) (be : Row.Idx → EReal) (d : Col.Idx → EReal)
    (W1 : Wgt.Idx → EReal) (r : Fin 50000) (j : Fin 128) : EReal :=
  ∑ k : Fin 128, ((∑ l : Fin 128, x (ix2 r l) * We (ix2 l k)) + be (ix2 0 k)) * d (ix2 r 0) * W1 (ix2 k j)

def feat1 (x : Nodes.Idx → EReal) (We : Wgt.Idx → EReal) (be : Row.Idx → EReal) (d : Col.Idx → EReal)
    (W1 : Wgt.Idx → EReal) : Nodes.Idx → EReal :=
  fun i => feat1At x We be d W1 (i 0) (i 1)

/-- Second dense stage at row `r`, column `j`: normalise the aggregated row by `din r`, add the
    bias, rectify, scale by `dout r`, and project with `W2`. -/
def feat2At (agg : Nodes.Idx → EReal) (din : Col.Idx → EReal) (b : Row.Idx → EReal) (dout : Col.Idx → EReal)
    (W2 : Wgt.Idx → EReal) (r : Fin 50000) (j : Fin 128) : EReal :=
  ∑ k : Fin 128, max (agg (ix2 r k) * din (ix2 r 0) + b (ix2 0 k)) zeroF * dout (ix2 r 0) * W2 (ix2 k j)

def feat2 (agg : Nodes.Idx → EReal) (din : Col.Idx → EReal) (b : Row.Idx → EReal) (dout : Col.Idx → EReal)
    (W2 : Wgt.Idx → EReal) : Nodes.Idx → EReal :=
  fun i => feat2At agg din b dout W2 (i 0) (i 1)

/-- Last stage at row `r`, column `j`: normalise the aggregated row and add the bias. -/
def outAt (agg : Nodes.Idx → EReal) (din : Col.Idx → EReal) (b : Row.Idx → EReal) (r : Fin 50000) (j : Fin 128) : EReal :=
  agg (ix2 r j) * din (ix2 r 0) + b (ix2 0 j)

def out (agg : Nodes.Idx → EReal) (din : Col.Idx → EReal) (b : Row.Idx → EReal) : Nodes.Idx → EReal :=
  fun i => outAt agg din b (i 0) (i 1)

/-- An edge list's endpoint column: 500000 node indices. -/
abbrev Edges : Shape := ⟨1, ![500000]⟩
/-- A bias vector. -/
abbrev Bias : Shape := ⟨1, ![128]⟩

/-- The whole computation over the three host-side functions it is parametric in — `inv` (a node's degree factor
    from an endpoint column), `move` (rows gathered at the source endpoints and summed at the destination
    endpoints) and `row` (a bias laid out as a row): the user rows are embedded, scaled by the out-degree factor of
    the user-to-item edges and projected; moved along those edges to the items; normalised by the items' in-degree
    factor, biased, rectified, scaled by the out-degree factor of the item-to-user edges and projected; moved along
    those edges to the users; normalised by the users' in-degree factor and biased. -/
def whole (inv : (Edges.Idx → BitVec 32) → Col.Idx → EReal)
    (move : (Nodes.Idx → EReal) → (Edges.Idx → BitVec 32) → (Edges.Idx → BitVec 32) → Nodes.Idx → EReal)
    (row : (Bias.Idx → EReal) → Row.Idx → EReal)
    (x : Nodes.Idx → EReal) (We : Wgt.Idx → EReal) (be : Bias.Idx → EReal) (W1 : Wgt.Idx → EReal) (b1 : Bias.Idx → EReal)
    (W2 : Wgt.Idx → EReal) (b2 : Bias.Idx → EReal) (srcUI dstUI srcIU dstIU : Edges.Idx → BitVec 32) : Nodes.Idx → EReal :=
  out (move (feat2 (move (feat1 x We (row be) (inv srcUI) W1) srcUI dstUI) (inv dstUI) (row b1) (inv srcIU) W2) srcIU dstIU)
    (inv dstIU) (row b2)

end Cert.Spec

end
-- ==== Proof.KHostFn.lean ====
/-
  The host-side functions of the program's @main that are not dense arithmetic, each named once as a function of
  whole arrays: a node's degree factor from an edge list's endpoint column, the movement of rows along edges
  (gather at the source endpoint, segment sum at the destination endpoint), and a bias laid out as one row.
-/
import proofs.«140852_j36429912605244_1_alg».proof.Proof.Gen.KernelIdeal
import Idealize.ShloMosaic.PureOps.Ideal

noncomputable section

namespace Cert.KernelIdeal.HostFn

open Cert.KernelIdeal Cert.KernelIdeal.Gen Idealize.ShloMosaic

/-- The degree factor of every node, as a column: count the edges whose endpoint column `idx` names the node (a
    segment sum of ones), clip the count below at one, and take the reciprocal square root. -/
def invDeg (idx : IVec S500000 32) : FVec Ideal S50000x1 .f32 :=
  broadcastInDim S50000x1 ![0] bcast_S50000_S50000x1_0
    (Host.rsqrt (F := Ideal) (maximumf (broadcastInDim S50000 ![] bcast_S_S50000 (id (constant (F := Ideal) S_ .f32 0x3F800000#32)))
      (Host.scatterAdd (F := Ideal) scatter_S50000_S500000x1_S500000_n_0_0_1 (broadcastInDim S50000 ![] bcast_S_S50000 (constant (F := Ideal) S_ .f32 0x00000000#32))
        (broadcastInDim S500000x1 ![0] bcast_S500000_S500000x1_0 idx)
        (broadcastInDim S500000 ![] bcast_S_S500000 (constant (F := Ideal) S_ .f32 0x3F800000#32)))))

/-- Rows moved along the edges: edge `e` reads row `src e` of `feat` (a negative index counted from the end, as jnp
    does) and the rows of the edges with `dst e = n` are summed into row `n`, from zero. -/
def moveRows (feat : FVec Ideal S50000x128 .f32) (src dst : IVec S500000 32) : FVec Ideal S50000x128 .f32 :=
  Host.scatterAdd (F := Ideal) scatter_S50000x128_S500000x1_S500000x128_1_0_0_1
    (broadcastInDim S50000x128 ![] bcast_S_S50000x128 (constant (F := Ideal) S_ .f32 0x00000000#32))
    (broadcastInDim S500000x1 ![0] bcast_S500000_S500000x1_0 dst)
    (Host.gather gather_S50000x128_S500000x1_S500000x128_1_0_n_n_0_1_1128 feat
      (broadcastInDim S500000x1 ![0] bcast_S500000_S500000x1_0
        (select (cmpi .slt src (broadcastInDim S500000 ![] bcast_S_S500000 (constantI S_ 32 0#32)))
          (addi src (broadcastInDim S500000 ![] bcast_S_S500000 (constantI S_ 32 50000#32))) src)))

/-- A bias vector laid out as one row of 128 (a reshape). -/
def rowOf (b : FVec Ideal S128 .f32) : FVec Ideal S1x128 .f32 :=
  shapeCast S1x128 b shapeCasts_S128_S1x128

end Cert.KernelIdeal.HostFn

end
-- ==== Proof.RHostFn.lean ====
/-
  The host-side functions of the program's @main that are not dense arithmetic, each named once as a function of
  whole arrays: a node's degree factor from an edge list's endpoint column, the movement of rows along edges
  (gather at the source endpoint, segment sum at the destination endpoint), and a bias laid out as one row.
-/
import proofs.«140852_j36429912605244_1_alg».proof.Proof.Gen.ReferenceIdeal
import Idealize.ShloMosaic.PureOps.Ideal

noncomputable section

namespace Cert.ReferenceIdeal.HostFn

open Cert.ReferenceIdeal Cert.ReferenceIdeal.Gen Idealize.ShloMosaic

/-- The degree factor of every node, as a column: count the edges whose endpoint column `idx` names the node (a
    segment sum of ones), clip the count below at one, and take the reciprocal square root. -/
def invDeg (idx : IVec S500000 32) : FVec Ideal S50000x1 .f32 :=
  broadcastInDim S50000x1 ![0] bcast_S50000_S50000x1_0
    (Host.rsqrt (F := Ideal) (maximumf (broadcastInDim S50000 ![] bcast_S_S50000 (id (constant (F := Ideal) S_ .f32 0x3F800000#32)))
      (Host.scatterAdd (F := Ideal) scatter_S50000_S500000x1_S500000_n_0_0_1 (broadcastInDim S50000 ![] bcast_S_S50000 (constant (F := Ideal) S_ .f32 0x00000000#32))
        (broadcastInDim S500000x1 ![0] bcast_S500000_S500000x1_0 idx)
        (broadcastInDim S500000 ![] bcast_S_S500000 (constant (F := Ideal) S_ .f32 0x3F800000#32)))))

/-- Rows moved along the edges: edge `e` reads row `src e` of `feat` (a negative index counted from the end, as jnp
    does) and the rows of the edges with `dst e = n` are summed into row `n`, from zero. -/
def moveRows (feat : FVec Ideal S50000x128 .f32) (src dst : IVec S500000 32) : FVec Ideal S50000x128 .f32 :=
  Host.scatterAdd (F := Ideal) scatter_S50000x128_S500000x1_S500000x128_1_0_0_1
    (broadcastInDim S50000x128 ![] bcast_S_S50000x128 (constant (F := Ideal) S_ .f32 0x00000000#32))
    (broadcastInDim S500000x1 ![0] bcast_S500000_S500000x1_0 dst)
    (Host.gather gather_S50000x128_S500000x1_S500000x128_1_0_n_n_0_1_1128 feat
      (broadcastInDim S500000x1 ![0] bcast_S500000_S500000x1_0
        (select (cmpi .slt src (broadcastInDim S500000 ![] bcast_S_S500000 (constantI S_ 32 0#32)))
          (addi src (broadcastInDim S500000 ![] bcast_S_S500000 (constantI S_ 32 50000#32))) src)))

/-- A bias vector laid out as one row of 128 (a broadcast along a new leading axis). -/
def rowOf (b : FVec Ideal S128 .f32) : FVec Ideal S1x128 .f32 :=
  broadcastInDim S1x128 ![1] bcast_S128_S1x128_1 b

end Cert.ReferenceIdeal.HostFn

end
-- ==== Proof.LibColumn.lean ====
/-
  A column broadcast over the columns, read at an index.
-/
import Idealize.ShloMosaic.Lib.Pipeline.Value
import Idealize.ShloMosaic.Lib.ValueIdx

namespace Cert.LibColumn

open Idealize.ShloMosaic Idealize.ShloMosaic.ValueIdx

variable {α : Type}

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KValue0.lean ====
/-
  Region 0 of the kernel program (embed, scale by the source degree factor, project): what its output array holds
  after the run, as the first dense stage of the specification applied to the arrays the region finds.
-/
import proofs.«140852_j36429912605244_1_alg».proof.Proof.Gen.KernelIdeal.Frame
import proofs.«140852_j36429912605244_1_alg».proof.Proof.Spec
import proofs.«140852_j36429912605244_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat Cfg Window)

/-! ## The tile product, index by index -/

/-- The left operand's index of the [2000,128] by [128,128] product at output index `i` and contraction position `s`:
    its row is `i`'s row, -/
theorem lhs_row (i : S2000x128.Idx) (s : dot_S2000x128_S128x128_S2000x128_1_0_0_1_n_n.contr.Idx) :
    (dot_S2000x128_S128x128_S2000x128_1_0_0_1_n_n.lhsIdx i s 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- its column the contraction position. -/
theorem lhs_col (i : S2000x128.Idx) (s : dot_S2000x128_S128x128_S2000x128_1_0_0_1_n_n.contr.Idx) :
    (dot_S2000x128_S128x128_S2000x128_1_0_0_1_n_n.lhsIdx i s 1).val = (s ⟨0, by decide⟩).val :=
  dot_S2000x128_S128x128_S2000x128_1_0_0_1_n_n.lhsIdx_val_of_single rfl i s
/-- The right operand's index: its row is the contraction position, -/
theorem rhs_row (i : S2000x128.Idx) (s : dot_S2000x128_S128x128_S2000x128_1_0_0_1_n_n.contr.Idx) :
    (dot_S2000x128_S128x128_S2000x128_1_0_0_1_n_n.rhsIdx i s 0).val = (s ⟨0, by decide⟩).val :=
  dot_S2000x128_S128x128_S2000x128_1_0_0_1_n_n.rhsIdx_val_of_single rfl i s
/-- its column `i`'s column. -/
theorem rhs_col (i : S2000x128.Idx) (s : dot_S2000x128_S128x128_S2000x128_1_0_0_1_n_n.contr.Idx) :
    (dot_S2000x128_S128x128_S2000x128_1_0_0_1_n_n.rhsIdx i s 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A [2000,128] by [128,128] product accumulated into zero, at row `p` and column `q`: row `p` of the left operand
    against column `q` of the right one. -/
theorem matmul_at {φ₁ φ₂ : FTy} (a : FVec Ideal S2000x128 φ₁) (b : FVec Ideal S128x128 φ₂) (p : Fin 2000) (q : Fin 128) :
    matmul (F := Ideal) dot_S2000x128_S128x128_S2000x128_1_0_0_1_n_n none a b (constant (F := Ideal) S2000x128 .f32 0x00000000#32) (ix2 p q)
      = ∑ k : Fin 128, a (ix2 p k) * b (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_row _ _
    | ⟨1, _⟩ => exact (lhs_col _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-! ## The body's value on one row tile -/

/-- The body's value at row `p`, column `q` of its tile, from the tile of node rows `x0`, the embedding matrix `x1`, the
    embedding bias row `x2`, the tile of degree factors `x3` and the projection matrix `x4`: the embedded row (the row
    against the embedding matrix, plus the bias), scaled by the row's factor, against the projection's column. -/
theorem payload_at (x0 : Vec Ideal S2000x128 .f32) (x1 : Vec Ideal S128x128 .f32) (x2 : Vec Ideal S1x128 .f32) (x3 : Vec Ideal S2000x1 .f32)
    (x4 : Vec Ideal S128x128 .f32) (p : Fin 2000) (q : Fin 128) :
    k0_pay1 (F := Ideal) x0 x1 x2 x3 x4 (ix2 p q)
      = ∑ k : Fin 128, ((∑ l : Fin 128, x0 (ix2 p l) * x1 (ix2 l k)) + x2 (ix2 (0 : Fin 1) k)) * x3 (ix2 p (0 : Fin 1)) * x4 (ix2 k q) := by
  unfold k0_pay1
  refine (matmul_at _ _ p q).trans ?_
  refine Finset.sum_congr rfl fun k _ => ?_
  simp only [truncf_apply, mulf_apply, addf_apply, shapeCast_self]
  rw [matmul_at, broadcastTo_1b_ab_apply, Cert.LibColumn.broadcastTo_a1_ab_apply]
  simp only [truncf_apply]

/-! ## From the row tiles to the array -/

-- the TensorCore's buffer contents when the region is entered
variable (V : (c : Dev nD) → (b : Ref sig .tc) → Buf (Elt Ideal) ((c : Thread nD τ).loc b))

theorem zero_offsets : (![0, 0] : Fin 2 → Nat) = fun _ => 0 := funext fun a => match a with | ⟨0, _⟩ => rfl | ⟨1, _⟩ => rfl

/-- The index maps over the grid's 25 points: the row-tiled arrays (node rows, degree factors, output) are at row block
    `t` at point `t`; the two matrices and the bias row are whole at every point. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The tile of node rows at point `t` holds rows `2000 t …` of the node features. -/
theorem nodes_tile (c : Dev nD) (t : Fin cfg0.N) (p : Fin 2000) (l : Fin 128) (r : Fin 50000) (hr : r.val = t.val * 2000 + p.val) :
    (iblk0 V c 0 t : Vec Ideal S2000x128 .f32) (ix2 p l) = (V c main_arg0 : S50000x128.Idx → EReal) (ix2 r l) := by
  obtain ⟨e00, e01, -⟩ := index_maps t
  unfold iblk0
  rw [View.read_apply]
  show (V c main_arg0 : S50000x128.Idx → EReal) _ = _
  refine congrArg (V c main_arg0 : S50000x128.Idx → EReal) (funext fun a => Fin.ext ?_)
  match a with
  | ⟨0, _⟩ => show win0_0.index t (0 : Fin 2) * 2000 + 1 * p.val = r.val; omega
  | ⟨1, _⟩ => show win0_0.index t (1 : Fin 2) * 128 + 1 * l.val = l.val; omega

/-- The embedding matrix's tile is the matrix. -/
theorem embed_tile (c : Dev nD) (t : Fin cfg0.N) (l k : Fin 128) :
    (iblk0 V c 1 t : Vec Ideal S128x128 .f32) (ix2 l k) = (V c main_arg2 : S128x128.Idx → EReal) (ix2 l k) := by
  obtain ⟨-, -, e10, e11, -⟩ := index_maps t
  unfold iblk0
  rw [View.read_apply]
  show (V c main_arg2 : S128x128.Idx → EReal) _ = _
  refine congrArg (V c main_arg2 : S128x128.Idx → EReal) (funext fun a => Fin.ext ?_)
  match a with
  | ⟨0, _⟩ => show win0_1.index t (0 : Fin 2) * 128 + 1 * l.val = l.val; omega
  | ⟨1, _⟩ => show win0_1.index t (1 : Fin 2) * 128 + 1 * k.val = k.val; omega

/-- The bias row's tile is the row. -/
theorem bias_tile (c : Dev nD) (t : Fin cfg0.N) (k : Fin 128) :
    (iblk0 V c 2 t : Vec Ideal S1x128 .f32) (ix2 (0 : Fin 1) k) = (V c main_v25 : S1x128.Idx → EReal) (ix2 (0 : Fin 1) k) := by
  obtain ⟨-, -, -, -, e20, e21, -⟩ := index_maps t
  unfold iblk0
  rw [View.read_apply]
  show (V c main_v25 : S1x128.Idx → EReal) _ = _
  refine congrArg (V c main_v25 : S1x128.Idx → EReal) (funext fun a => Fin.ext ?_)
  match a with
  | ⟨0, _⟩ => show win0_2.index t (0 : Fin 2) * 1 + 1 * 0 = 0; omega
  | ⟨1, _⟩ => show win0_2.index t (1 : Fin 2) * 128 + 1 * k.val = k.val; omega

/-- The tile of degree factors at point `t` holds the factors of rows `2000 t …`. -/
theorem factor_tile (c : Dev nD) (t : Fin cfg0.N) (p : Fin 2000) (r : Fin 50000) (hr : r.val = t.val * 2000 + p.val) :
    (iblk0 V c 3 t : Vec Ideal S2000x1 .f32) (ix2 p (0 : Fin 1)) = (V c main_v18 : S50000x1.Idx → EReal) (ix2 r (0 : Fin 1)) := by
  obtain ⟨-, -, -, -, -, -, e30, e31, -⟩ := index_maps t
  unfold iblk0
  rw [View.read_apply]
  show (V c main_v18 : S50000x1.Idx → EReal) _ = _
  refine congrArg (V c main_v18 : S50000x1.Idx → EReal) (funext fun a => Fin.ext ?_)
  match a with
  | ⟨0, _⟩ => show win0_3.index t (0 : Fin 2) * 2000 + 1 * p.val = r.val; omega
  | ⟨1, _⟩ => show win0_3.index t (1 : Fin 2) * 1 + 1 * 0 = 0; omega

/-- The projection matrix's tile is the matrix. -/
theorem project_tile (c : Dev nD) (t : Fin cfg0.N) (k q : Fin 128) :
    (iblk0 V c 4 t : Vec Ideal S128x128 .f32) (ix2 k q) = (V c main_arg4 : S128x128.Idx → EReal) (ix2 k q) := by
  obtain ⟨-, -, -, -, -, -, -, -, e40, e41, -⟩ := index_maps t
  unfold iblk0
  rw [View.read_apply]
  show (V c main_arg4 : S128x128.Idx → EReal) _ = _
  refine congrArg (V c main_arg4 : S128x128.Idx → EReal) (funext fun a => Fin.ext ?_)
  match a with
  | ⟨0, _⟩ => show win0_4.index t (0 : Fin 2) * 128 + 1 * k.val = k.val; omega
  | ⟨1, _⟩ => show win0_4.index t (1 : Fin 2) * 128 + 1 * q.val = q.val; omega

/-- The body's value at row `p`, column `q` of point `t`'s tile is the first dense stage at row `2000 t + p`, column `q`. -/
theorem tile_at (c : Dev nD) (t : Fin cfg0.N) (p : Fin 2000) (q : Fin 128) (r : Fin 50000) (hr : r.val = t.val * 2000 + p.val) :
    k0_pay1 (F := Ideal) (iblk0 V c 0 t) (iblk0 V c 1 t) (iblk0 V c 2 t) (iblk0 V c 3 t) (iblk0 V c 4 t) (ix2 p q)
      = Cert.Spec.feat1At (V c main_arg0) (V c main_arg2) (V c main_v25) (V c main_v18) (V c main_arg4) r q := by
  refine (payload_at _ _ _ _ _ p q).trans ?_
  unfold Cert.Spec.feat1At
  refine Finset.sum_congr rfl fun k _ => ?_
  rw [bias_tile V c t k, factor_tile V c t p r hr, project_tile V c t k q]
  simp only [nodes_tile V c t p _ r hr, embed_tile V c t]

/-- What point `t` writes back is block `t` of the first dense stage of the arrays the region finds. -/
theorem flushed_eq (c : Dev nD) (t : Fin cfg0.N) :
    (dat0 (F := Ideal) V c).flushed 5 t = ((cfg0.win 5).blk t).view.read (Elt Ideal)
      (Cert.Spec.feat1 (V c main_arg0) (V c main_arg2) (V c main_v25) (V c main_v18) (V c main_arg4)) := by
  show (cfg0.win 5).cut (grid0.coords t) ((dat0 V c).after 5 t) = _
  rw [after0_5]
  unfold out0_5
  rw [View.canon_unit_zero zero_offsets]
  simp only [View.ld_unit_zero (S := S2000x128) zero_offsets, View.ld_unit_zero (S := S128x128) zero_offsets,
    View.ld_unit_zero (S := S1x128) zero_offsets, View.ld_unit_zero (S := S2000x1) zero_offsets]
  obtain ⟨-, -, -, -, -, -, -, -, -, -, e50, e51⟩ := index_maps t
  funext j
  rw [View.read_apply]
  have hj0 : (j 0).val < 2000 := (j 0).isLt
  have hj1 : (j 1).val < 128 := (j 1).isLt
  have ht : t.val < 25 := t.isLt
  have hx : (win0 5).xinj (grid0.coords t) j = ix2 (⟨(j 0).val, hj0⟩ : Fin 2000) (⟨(j 1).val, hj1⟩ : Fin 128) :=
    funext fun a => match a with | ⟨0, _⟩ => rfl | ⟨1, _⟩ => rfl
  refine (congrArg (k0_pay1 (F := Ideal) (iblk0 V c 0 t) (iblk0 V c 1 t) (iblk0 V c 2 t) (iblk0 V c 3 t) (iblk0 V c 4 t)) hx).trans ?_
  refine (tile_at V c t ⟨(j 0).val, hj0⟩ ⟨(j 1).val, hj1⟩ ⟨t.val * 2000 + (j 0).val, by omega⟩ rfl).trans ?_
  show _ = Cert.Spec.feat1At (V c main_arg0) (V c main_arg2) (V c main_v25) (V c main_v18) (V c main_arg4)
    ((((cfg0.win 5).blk t).view.emb j) 0) ((((cfg0.win 5).blk t).view.emb j) 1)
  have h0 : (⟨t.val * 2000 + (j 0).val, by omega⟩ : Fin 50000) = (((cfg0.win 5).blk t).view.emb j) 0 := Fin.ext (by
    show t.val * 2000 + (j 0).val = win0_5.index t (0 : Fin 2) * 2000 + 1 * (j 0).val; omega)
  have h1 : (⟨(j 1).val, hj1⟩ : Fin 128) = (((cfg0.win 5).blk t).view.emb j) 1 := Fin.ext (by
    show (j 1).val = win0_5.index t (1 : Fin 2) * 128 + 1 * (j 1).val; omega)
  rw [h0, h1]

/-- An index of the output array is in point `t`'s block iff each coordinate is in the block's range on its axis. -/
theorem mem_blk (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v28).slice (win0_5.rect t)).set ↔ _
  rw [View.set_slice_whole, Rect.mem_set_unit]
  exact Iff.rfl

/-- Every row of the output is written back by the point of its row block. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : grid0.N = 25 := N_0
  let t : Fin cfg0.N := ⟨(i 0).val / 2000, by show (i 0).val / 2000 < grid0.N; omega⟩
  obtain ⟨-, -, -, -, -, -, -, -, -, -, e50, e51⟩ := index_maps t
  have ht : t.val = (i 0).val / 2000 := rfl
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- The region's output array after its 25 row tiles have been written back. -/
theorem final (c : Dev nD) :
    (dat0 (F := Ideal) V c).arrAt 5 cfg0.N = Cert.Spec.feat1 (V c main_arg0) (V c main_arg2) (V c main_v25) (V c main_v18) (V c main_arg4) :=
  (dat0 (F := Ideal) V c).arrAt_eq_of_cover 5 _ (fun t _ => flushed_eq V c t) cover

end Cert.KernelIdeal.Region0

end
-- ==== Proof.KValue1.lean ====
/-
  Region 1 of the kernel program (normalise, bias, rectify, scale, project): what its output array holds after the
  run, as the second dense stage of the specification applied to the arrays the region finds.

  The region's 25 grid points each take one tile of 2000 rows.  At a point the body multiplies the aggregated rows by
  the in-degree column, adds the bias row, takes the maximum with zero, multiplies by the out-degree column and
  contracts the 128 lanes with the weight matrix.  Below: the body's stored value at a row and a column of the tile as
  that sum; each input tile read as the rows of its array the tile stands over; what a point writes back as its tile of
  the stage's whole-array function; the tiles cover the output array; so the array ends holding that function.
-/
import proofs.«140852_j36429912605244_1_alg».proof.Proof.Gen.KernelIdeal.Frame
import proofs.«140852_j36429912605244_1_alg».proof.Proof.Spec
import proofs.«140852_j36429912605244_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- The body's loads and its store start at the origin of their staging buffers. -/
theorem hz : (![0, 0] : Fin 2 → Nat) = fun _ => 0 := funext fun a => by fin_cases a <;> rfl

/-- The windows' index maps over the grid: the row-tiled windows sit at block (t, 0), the bias row and the weight
    matrix at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-! ## The body's matrix product: axis 1 of its left operand is contracted with axis 0 of its right operand -/

theorem lhs_axis0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_axis1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_axis0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_axis1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product into a zero accumulator, at row p and column q: the sum over the 128 contracted positions. -/
theorem matmul_at (a : FVec Ideal S2000x128 .bf16) (b : FVec Ideal S128x128 .bf16) (p : Fin 2000) (q : Fin 128) :
    matmul dot_S2000x128_S128x128_S2000x128_1_0_0_1_n_n none a b (constant (F := Ideal) S2000x128 .f32 0x00000000#32) (ix2 p q)
      = ∑ k : Fin 128, a (ix2 p k) * b (ix2 k q) := by
  refine (Ideal.matmul_constant_zero_apply dot_S2000x128_S128x128_S2000x128_1_0_0_1_n_n none a b (ix2 p q)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- The body's stored value at row p, column q of the tile. -/
theorem pay_apply (x0 : Vec Ideal S2000x128 .f32) (x1 : Vec Ideal S2000x1 .f32) (x2 : Vec Ideal S1x128 .f32)
    (x3 : Vec Ideal S2000x1 .f32) (x4 : Vec Ideal S128x128 .f32) (p : Fin 2000) (q : Fin 128) :
    k1_pay1 x0 x1 x2 x3 x4 (ix2 p q)
      = ∑ k : Fin 128, max (x0 (ix2 p k) * x1 (ix2 p 0) + x2 (ix2 0 k)) Cert.Spec.zeroF * x3 (ix2 p 0) * x4 (ix2 k q) := by
  unfold k1_pay1
  simp only [shapeCast_self]
  refine (matmul_at _ _ p q).trans ?_
  refine Finset.sum_congr rfl fun k _ => ?_
  simp only [truncf_apply, mulf_apply, maximumf_apply, addf_apply, broadcast_apply,
    Cert.LibColumn.broadcastTo_a1_ab_apply, broadcastTo_1b_ab_apply]
  rfl

-- the TensorCore's buffer contents when the region is entered
variable (V : (c : Dev nD) → (b : Ref sig .tc) → Buf (Elt Ideal) ((c : Thread nD τ).loc b))

/-- The aggregated rows' tile at point t, row p, lane k: the array's entry at row 2000·t + p. -/
theorem blk_agg (c : Dev nD) (t : Fin cfg1.N) (p : Fin 2000) (k : Fin 128) (r : Fin 50000) (hr : r.val = t.val * 2000 + p.val) :
    iblk1 V c 0 t (ix2 p k) = V c main_v38 (ix2 r k) := by
  obtain ⟨e0, e1, -⟩ := idx_facts t
  unfold iblk1
  rw [View.read_apply]
  show V c main_v38 _ = V c main_v38 _
  refine congrArg (V c main_v38) (funext fun a => Fin.ext ?_)
  match a with
  | ⟨0, _⟩ => show win1_0.index t (0 : Fin 2) * 2000 + 1 * p.val = r.val; rw [e0, hr]; omega
  | ⟨1, _⟩ => show win1_0.index t (1 : Fin 2) * 128 + 1 * k.val = k.val; rw [e1]; omega

/-- The in-degree factor's tile at point t, row p: the column's entry at row 2000·t + p. -/
theorem blk_din (c : Dev nD) (t : Fin cfg1.N) (p : Fin 2000) (r : Fin 50000) (hr : r.val = t.val * 2000 + p.val) :
    iblk1 V c 1 t (ix2 p 0) = V c main_v20 (ix2 r 0) := by
  obtain ⟨-, -, e0, e1, -⟩ := idx_facts t
  unfold iblk1
  rw [View.read_apply]
  show V c main_v20 _ = V c main_v20 _
  refine congrArg (V c main_v20) (funext fun a => Fin.ext ?_)
  match a with
  | ⟨0, _⟩ => show win1_1.index t (0 : Fin 2) * 2000 + 1 * p.val = r.val; rw [e0, hr]; omega
  | ⟨1, _⟩ => show win1_1.index t (1 : Fin 2) * 1 + 1 * 0 = 0; rw [e1]

/-- The bias row's block is the whole row at every point. -/
theorem blk_bias (c : Dev nD) (t : Fin cfg1.N) (k : Fin 128) :
    iblk1 V c 2 t (ix2 0 k) = V c main_v26 (ix2 0 k) := by
  obtain ⟨-, -, -, -, e0, e1, -⟩ := idx_facts t
  unfold iblk1
  rw [View.read_apply]
  show V c main_v26 _ = V c main_v26 _
  refine congrArg (V c main_v26) (funext fun a => Fin.ext ?_)
  match a with
  | ⟨0, _⟩ => show win1_2.index t (0 : Fin 2) * 1 + 1 * 0 = 0; rw [e0]
  | ⟨1, _⟩ => show win1_2.index t (1 : Fin 2) * 128 + 1 * k.val = k.val; rw [e1]; omega

/-- The out-degree factor's tile at point t, row p: the column's entry at row 2000·t + p. -/
theorem blk_dout (c : Dev nD) (t : Fin cfg1.N) (p : Fin 2000) (r : Fin 50000) (hr : r.val = t.val * 2000 + p.val) :
    iblk1 V c 3 t (ix2 p 0) = V c main_v22 (ix2 r 0) := by
  obtain ⟨-, -, -, -, -, -, e0, e1, -⟩ := idx_facts t
  unfold iblk1
  rw [View.read_apply]
  show V c main_v22 _ = V c main_v22 _
  refine congrArg (V c main_v22) (funext fun a => Fin.ext ?_)
  match a with
  | ⟨0, _⟩ => show win1_3.index t (0 : Fin 2) * 2000 + 1 * p.val = r.val; rw [e0, hr]; omega
  | ⟨1, _⟩ => show win1_3.index t (1 : Fin 2) * 1 + 1 * 0 = 0; rw [e1]

/-- The weight matrix's block is the whole matrix at every point. -/
theorem blk_wgt (c : Dev nD) (t : Fin cfg1.N) (k q : Fin 128) :
    iblk1 V c 4 t (ix2 k q) = V c main_arg8 (ix2 k q) := by
  obtain ⟨-, -, -, -, -, -, -, -, e0, e1, -⟩ := idx_facts t
  unfold iblk1
  rw [View.read_apply]
  show V c main_arg8 _ = V c main_arg8 _
  refine congrArg (V c main_arg8) (funext fun a => Fin.ext ?_)
  match a with
  | ⟨0, _⟩ => show win1_4.index t (0 : Fin 2) * 128 + 1 * k.val = k.val; rw [e0]; omega
  | ⟨1, _⟩ => show win1_4.index t (1 : Fin 2) * 128 + 1 * q.val = q.val; rw [e1]; omega

/-- What point t writes back is tile t of the second dense stage of the arrays the region finds. -/
theorem flushed_eq (c : Dev nD) (t : Fin cfg1.N) :
    (dat1 (F := Ideal) V c).flushed 5 t = ((cfg1.win 5).blk t).view.read (Elt Ideal)
      (Cert.Spec.feat2 (V c main_v38) (V c main_v20) (V c main_v26) (V c main_v22) (V c main_arg8)) := by
  show (cfg1.win 5).cut (grid1.coords t) ((dat1 V c).after 5 t) = _
  rw [after1_5]
  unfold out1_5
  rw [View.canon_unit_zero hz]
  simp only [View.ld_unit_zero (S := S2000x128) hz, View.ld_unit_zero (S := S2000x1) hz, View.ld_unit_zero (S := S1x128) hz, View.ld_unit_zero (S := S128x128) hz]
  funext j
  obtain ⟨p, q, rfl⟩ : ∃ (p : Fin 2000) (q : Fin 128), j = ix2 p q := ⟨j 0, j 1, eq_ix2 j⟩
  obtain ⟨-, -, -, -, -, -, -, -, -, -, e0, e1⟩ := idx_facts t
  have ht : t.val < 25 := lt_of_lt_of_eq t.isLt N_1
  have hp : p.val < 2000 := p.isLt
  -- the array's row under row p of tile t
  obtain ⟨r, hr⟩ : ∃ r : Fin 50000, r.val = t.val * 2000 + p.val := ⟨⟨t.val * 2000 + p.val, by omega⟩, rfl⟩
  have hi : ((cfg1.win 5).blk t).view.emb (ix2 p q) = ix2 r q := funext fun a => Fin.ext (by
    match a with
    | ⟨0, _⟩ => show win1_5.index t (0 : Fin 2) * 2000 + 1 * p.val = r.val; rw [e0, hr]; omega
    | ⟨1, _⟩ => show win1_5.index t (1 : Fin 2) * 128 + 1 * q.val = q.val; rw [e1]; omega)
  rw [View.read_apply, hi]
  show k1_pay1 (iblk1 V c 0 t) (iblk1 V c 1 t) (iblk1 V c 2 t) (iblk1 V c 3 t) (iblk1 V c 4 t) (ix2 p q)
    = Cert.Spec.feat2At (V c main_v38) (V c main_v20) (V c main_v26) (V c main_v22) (V c main_arg8) r q
  refine (pay_apply _ _ _ _ _ p q).trans ?_
  unfold Cert.Spec.feat2At
  refine Finset.sum_congr rfl fun k _ => ?_
  rw [blk_agg V c t p k r hr, blk_din V c t p r hr, blk_bias V c t k, blk_dout V c t p r hr, blk_wgt V c t k q]

/-- An index of the output array is in point t's tile iff each coordinate is in the tile's range on its axis. -/
theorem mem_blk (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v39).slice (win1_5.rect t)).set ↔ _
  rw [View.set_slice_whole, Rect.mem_set_unit]
  exact Iff.rfl

/-- Every row of the output array lies in some point's tile: row r in the tile of point r / 2000. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ : ∃ t : Fin cfg1.N, t.val = (i 0).val / 2000 :=
    ⟨⟨(i 0).val / 2000, lt_of_lt_of_eq (by omega) N_1.symm⟩, rfl⟩
  obtain ⟨-, -, -, -, -, -, -, -, -, -, e0, e1⟩ := idx_facts t
  refine ⟨t, flush1_5 t, ?_⟩
  rw [mem_blk]
  intro a
  match a with
  | ⟨0, _⟩ =>
    show win1_5.index t (0 : Fin 2) * 2000 ≤ (i 0).val ∧ (i 0).val < win1_5.index t (0 : Fin 2) * 2000 + 2000
    rw [e0, ht]; omega
  | ⟨1, _⟩ =>
    show win1_5.index t (1 : Fin 2) * 128 ≤ (i 1).val ∧ (i 1).val < win1_5.index t (1 : Fin 2) * 128 + 128
    rw [e1]; omega

/-- The region's output array after its 25 row tiles have been written back. -/
theorem final (c : Dev nD) :
    (dat1 (F := Ideal) V c).arrAt 5 cfg1.N = Cert.Spec.feat2 (V c main_v38) (V c main_v20) (V c main_v26) (V c main_v22) (V c main_arg8) :=
  (dat1 V c).arrAt_eq_of_cover 5 _ (fun t _ => flushed_eq V c t) cover

end Cert.KernelIdeal.Region1

end
-- ==== Proof.KValue2.lean ====
/-
  Region 2 of the kernel program (normalise and add the bias): what its output array holds after the run, as the last
  stage of the specification applied to the arrays the region finds.

  The grid has 25 points; point `t` loads rows 2000 t .. 2000 t + 1999 of the aggregated rows and of the degree
  column, the whole bias row, and stores `agg * d + b` over the same rows of the output.  The 25 row tiles cover the
  output, so the array ends at the stage's function of the whole arrays.
-/
import proofs.«140852_j36429912605244_1_alg».proof.Proof.Gen.KernelIdeal.Frame
import proofs.«140852_j36429912605244_1_alg».proof.Proof.Spec
import proofs.«140852_j36429912605244_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.SL.Sem Idealize.ShloMosaic.ValueIdx
open Idealize.ShloMosaic.Pipeline (Dat Cfg Window)

-- the TensorCore's buffer contents when the region is entered
variable (V : (c : Dev nD) → (b : Ref sig .tc) → Buf (Elt Ideal) ((c : Thread nD τ).loc b))

/-- The arrays the region finds, at their literal types. -/
abbrev aggArr (c : Dev nD) : Vec Ideal S50000x128 .f32 := V c main_v49
abbrev degArr (c : Dev nD) : Vec Ideal S50000x1 .f32 := V c main_v24
abbrev biasArr (c : Dev nD) : Vec Ideal S1x128 .f32 := V c main_v27

theorem origin : (![0, 0] : Fin 2 → Nat) = fun _ => 0 := funext fun a => by fin_cases a <;> rfl

/-- The body's value at row `p`, column `q` of a tile: the aggregated entry times the row's degree factor plus the
    column's bias. -/
theorem tile_apply (x0 : Vec Ideal S2000x128 .f32) (x1 : Vec Ideal S2000x1 .f32) (x2 : Vec Ideal S1x128 .f32)
    (p : Fin 2000) (q : Fin 128) :
    k2_pay1 x0 x1 x2 (ix2 p q) = x0 (ix2 p q) * x1 (ix2 p 0) + x2 (ix2 0 q) := by
  unfold k2_pay1
  simp only [shapeCast_self]
  rw [addf_apply, mulf_apply, Cert.LibColumn.broadcastTo_a1_ab_apply, broadcastTo_1b_ab_apply]

/-- The stage's function at an index of the whole array, written with the index itself for the aggregated entry. -/
theorem stage_at (A : Vec Ideal S50000x128 .f32) (D : Vec Ideal S50000x1 .f32) (B : Vec Ideal S1x128 .f32) (E : S50000x128.Idx) :
    A E * D (ix2 (E 0) (0 : Fin 1)) + B (ix2 (0 : Fin 1) (E 1)) = Cert.Spec.out A D B E := by
  show _ = Cert.Spec.outAt A D B (E 0) (E 1)
  unfold Cert.Spec.outAt
  exact congrArg (fun z : S50000x128.Idx => A z * D (ix2 (E 0) (0 : Fin 1)) + B (ix2 (0 : Fin 1) (E 1))) (eq_ix2 E)

/-- The index maps over the grid: the row-tiled windows move together, the bias window stays, and the output's
    block index is the point. -/
theorem index_facts : ∀ t : Fin cfg2.N, win2_0.index t (0 : Fin 2) = win2_3.index t (0 : Fin 2)
    ∧ win2_0.index t (1 : Fin 2) = 0
    ∧ win2_1.index t (0 : Fin 2) = win2_3.index t (0 : Fin 2)
    ∧ win2_1.index t (1 : Fin 2) = 0
    ∧ win2_2.index t (0 : Fin 2) = 0
    ∧ win2_2.index t (1 : Fin 2) = 0
    ∧ win2_3.index t (0 : Fin 2) ≤ 24
    ∧ win2_3.index t (1 : Fin 2) = 0 :=
  (by decide +kernel : ∀ t : Fin grid2.N, _)

/-- Every row tile is some point's. -/
theorem index_onto : ∀ q0 : Fin 25, ∃ t : Fin cfg2.N, win2_3.index t = ![q0.val, 0] :=
  (by decide +kernel : ∀ q0 : Fin 25, ∃ t : Fin grid2.N, win2_3.index t = ![q0.val, 0])

/-- What point `t` writes back is its row tile of the stage's whole-array function. -/
theorem flushed_eq (c : Dev nD) (t : Fin cfg2.N) :
    (dat2 (F := Ideal) V c).flushed 3 t
      = ((cfg2.win 3).blk t).view.read (Elt Ideal) (Cert.Spec.out (V c main_v49) (V c main_v24) (V c main_v27)) := by
  show (cfg2.win 3).cut (grid2.coords t) ((dat2 (F := Ideal) V c).after 3 t) = _
  rw [after2_3]
  unfold out2_3
  rw [View.canon_unit_zero origin]
  simp only [View.ld_unit_zero (S := S2000x128) origin, View.ld_unit_zero (S := S2000x1) origin, View.ld_unit_zero (S := S1x128) origin]
  obtain ⟨e0, e1, e2, e3, e4, e5, e6, e7⟩ := index_facts t
  funext j
  obtain ⟨p, q, rfl⟩ : ∃ (p : Fin 2000) (q : Fin 128), j = ix2 p q := ⟨j 0, j 1, eq_ix2 j⟩
  show k2_pay1 (iblk2 V c 0 t) (iblk2 V c 1 t) (iblk2 V c 2 t) (ix2 p q)
      = Cert.Spec.out (aggArr V c) (degArr V c) (biasArr V c) (((cfg2.win 3).blk t).view.emb (ix2 p q))
  refine (tile_apply (iblk2 V c 0 t) (iblk2 V c 1 t) (iblk2 V c 2 t) p q).trans ?_
  show aggArr V c (((cfg2.win 0).blk t).view.emb (ix2 p q)) * degArr V c (((cfg2.win 1).blk t).view.emb (ix2 p 0))
      + biasArr V c (((cfg2.win 2).blk t).view.emb (ix2 0 q)) = _
  have r0 : ((cfg2.win 0).blk t).view.emb (ix2 p q) = ((cfg2.win 3).blk t).view.emb (ix2 p q) := by
    funext a; apply Fin.ext
    match a with
    | ⟨0, _⟩ => show win2_0.index t (0 : Fin 2) * 2000 + 1 * p.val = win2_3.index t (0 : Fin 2) * 2000 + 1 * p.val; rw [e0]
    | ⟨1, _⟩ => show win2_0.index t (1 : Fin 2) * 128 + 1 * q.val = win2_3.index t (1 : Fin 2) * 128 + 1 * q.val; rw [e1, e7]
  have r1 : ((cfg2.win 1).blk t).view.emb (ix2 p (0 : Fin 1))
      = ix2 (((cfg2.win 3).blk t).view.emb (ix2 p q) 0) (0 : Fin 1) := by
    funext a; apply Fin.ext
    match a with
    | ⟨0, _⟩ => show win2_1.index t (0 : Fin 2) * 2000 + 1 * p.val = win2_3.index t (0 : Fin 2) * 2000 + 1 * p.val; rw [e2]
    | ⟨1, _⟩ => show win2_1.index t (1 : Fin 2) * 1 + 1 * 0 = 0; rw [e3]
  have r2 : ((cfg2.win 2).blk t).view.emb (ix2 (0 : Fin 1) q)
      = ix2 (0 : Fin 1) (((cfg2.win 3).blk t).view.emb (ix2 p q) 1) := by
    funext a; apply Fin.ext
    match a with
    | ⟨0, _⟩ => show win2_2.index t (0 : Fin 2) * 1 + 1 * 0 = 0; rw [e4]
    | ⟨1, _⟩ => show win2_2.index t (1 : Fin 2) * 128 + 1 * q.val = win2_3.index t (1 : Fin 2) * 128 + 1 * q.val; rw [e5, e7]
  rw [r0, r1, r2]
  exact stage_at (aggArr V c) (degArr V c) (biasArr V c) _

/-- An index of the output array is in point `t`'s tile iff each coordinate is in the tile's range on its axis. -/
theorem mem_tile (t : Fin cfg2.N) (i : S50000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v50).slice (win2_3.rect t)).set ↔ _
  rw [View.set_slice_whole, Rect.mem_set_unit]
  exact Iff.rfl

/-- Row `r` lies in the tile of point `r / 2000`. -/
theorem cover (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  obtain ⟨t, ht⟩ := index_onto ⟨(i 0).val / 2000, by omega⟩
  have q0 : win2_3.index t (0 : Fin 2) = (i 0).val / 2000 := congrFun ht 0
  have q1 : win2_3.index t (1 : Fin 2) = 0 := congrFun ht 1
  refine ⟨t, flush2_3 t, ?_⟩
  rw [mem_tile]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 128 ≤ (i 1).val ∧ (i 1).val < win2_3.index t (1 : Fin 2) * 128 + 128; omega

/-- The region's output array after its 25 row tiles have been written back. -/
theorem final (c : Dev nD) :
    (dat2 (F := Ideal) V c).arrAt 3 cfg2.N = Cert.Spec.out (V c main_v49) (V c main_v24) (V c main_v27) :=
  (dat2 (F := Ideal) V c).arrAt_eq_of_cover 3 _ (fun t _ => flushed_eq V c t) cover

end Cert.KernelIdeal.Region2

end
-- ==== Proof.KPrefixA.lean ====
/-
  Before the first region, the argument buffers and the bias rows: no host operation writes an argument, so at the
  first region's entry each holds what the launch memory holds; the three bias rows are the reshapes of their bias
  vectors.
-/
import proofs.«140852_j36429912605244_1_alg».proof.Proof.Gen.KernelIdeal.Frame
import proofs.«140852_j36429912605244_1_alg».proof.Proof.Spec
import proofs.«140852_j36429912605244_1_alg».proof.Proof.KHostFn

set_option maxRecDepth 16384

noncomputable section

namespace Cert.KernelIdeal.Fold

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The nine host stretches before the first region, followed back from a buffer to the launch memory: each
    operation's result at its own buffer is its function of its operands' contents, and at any other buffer what was
    there. -/
local macro "prefix_results" : tactic =>
  `(tactic| (dsimp only [W9, W8, W7, W6, W5, W4, W3, W2, W1, hostOps0_8, hostOps0_7, hostOps0_6, hostOps0_5, hostOps0_4,
      hostOps0_3, hostOps0_2, hostOps0_1, hostOps0]
             after_results_simp))

/-! ## The arguments as launched -/

set_option maxHeartbeats 1600000 in
theorem W9_arg0 (c : Dev nD) : W9 (F := Ideal) m ρ c (Proc.devRef .tc main_arg0) = m ((c.tc : Thread nD τ).loc main_arg0) := by
  prefix_results <;> rfl
set_option maxHeartbeats 1600000 in
theorem W9_arg2 (c : Dev nD) : W9 (F := Ideal) m ρ c (Proc.devRef .tc main_arg2) = m ((c.tc : Thread nD τ).loc main_arg2) := by
  prefix_results <;> rfl
set_option maxHeartbeats 1600000 in
theorem W9_arg4 (c : Dev nD) : W9 (F := Ideal) m ρ c (Proc.devRef .tc main_arg4) = m ((c.tc : Thread nD τ).loc main_arg4) := by
  prefix_results <;> rfl
set_option maxHeartbeats 1600000 in
theorem W9_arg8 (c : Dev nD) : W9 (F := Ideal) m ρ c (Proc.devRef .tc main_arg8) = m ((c.tc : Thread nD τ).loc main_arg8) := by
  prefix_results <;> rfl
set_option maxHeartbeats 1600000 in
theorem W9_arg10 (c : Dev nD) : W9 (F := Ideal) m ρ c (Proc.devRef .tc main_arg10) = m ((c.tc : Thread nD τ).loc main_arg10) := by
  prefix_results <;> rfl
set_option maxHeartbeats 1600000 in
theorem W9_arg11 (c : Dev nD) : W9 (F := Ideal) m ρ c (Proc.devRef .tc main_arg11) = m ((c.tc : Thread nD τ).loc main_arg11) := by
  prefix_results <;> rfl
set_option maxHeartbeats 1600000 in
theorem W9_arg12 (c : Dev nD) : W9 (F := Ideal) m ρ c (Proc.devRef .tc main_arg12) = m ((c.tc : Thread nD τ).loc main_arg12) := by
  prefix_results <;> rfl
set_option maxHeartbeats 1600000 in
theorem W9_arg13 (c : Dev nD) : W9 (F := Ideal) m ρ c (Proc.devRef .tc main_arg13) = m ((c.tc : Thread nD τ).loc main_arg13) := by
  prefix_results <;> rfl

/-! ## The bias rows -/

set_option maxHeartbeats 1600000 in
theorem W9_v25 (c : Dev nD) : (W9 (F := Ideal) m ρ c (Proc.devRef .tc main_v25) : FVec Ideal S1x128 .f32)
    = HostFn.rowOf (m ((c.tc : Thread nD τ).loc main_arg3)) := by
  prefix_results <;> rfl
set_option maxHeartbeats 1600000 in
theorem W9_v26 (c : Dev nD) : (W9 (F := Ideal) m ρ c (Proc.devRef .tc main_v26) : FVec Ideal S1x128 .f32)
    = HostFn.rowOf (m ((c.tc : Thread nD τ).loc main_arg5)) := by
  prefix_results <;> rfl
set_option maxHeartbeats 1600000 in
theorem W9_v27 (c : Dev nD) : (W9 (F := Ideal) m ρ c (Proc.devRef .tc main_v27) : FVec Ideal S1x128 .f32)
    = HostFn.rowOf (m ((c.tc : Thread nD τ).loc main_arg9)) := by
  prefix_results <;> rfl

end Cert.KernelIdeal.Fold

end
-- ==== Proof.KPrefixB.lean ====
/-
  Before the first region, the degree factors of the user-to-item edges: the count of the edges at each endpoint
  (a segment sum of ones), clipped below at one, its reciprocal square root, as a column.
-/
import proofs.«140852_j36429912605244_1_alg».proof.Proof.Gen.KernelIdeal.Frame
import proofs.«140852_j36429912605244_1_alg».proof.Proof.Spec
import proofs.«140852_j36429912605244_1_alg».proof.Proof.KHostFn

set_option maxRecDepth 16384

noncomputable section

namespace Cert.KernelIdeal.Fold

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The nine host stretches before the first region, followed back from a buffer to the launch memory: each
    operation's result at its own buffer is its function of its operands' contents, and at any other buffer what was
    there. -/
local macro "prefix_results" : tactic =>
  `(tactic| (dsimp only [W9, W8, W7, W6, W5, W4, W3, W2, W1, hostOps0_8, hostOps0_7, hostOps0_6, hostOps0_5, hostOps0_4,
      hostOps0_3, hostOps0_2, hostOps0_1, hostOps0]
             after_results_simp))

set_option maxHeartbeats 1600000 in
theorem W9_v18 (c : Dev nD) : (W9 (F := Ideal) m ρ c (Proc.devRef .tc main_v18) : FVec Ideal S50000x1 .f32)
    = HostFn.invDeg (m ((c.tc : Thread nD τ).loc main_arg10)) := by
  prefix_results <;> rfl
set_option maxHeartbeats 1600000 in
theorem W9_v20 (c : Dev nD) : (W9 (F := Ideal) m ρ c (Proc.devRef .tc main_v20) : FVec Ideal S50000x1 .f32)
    = HostFn.invDeg (m ((c.tc : Thread nD τ).loc main_arg11)) := by
  prefix_results <;> rfl

end Cert.KernelIdeal.Fold

end
-- ==== Proof.KPrefixC.lean ====
/-
  Before the first region, the degree factors of the item-to-user edges: the count of the edges at each endpoint
  (a segment sum of ones), clipped below at one, its reciprocal square root, as a column.
-/
import proofs.«140852_j36429912605244_1_alg».proof.Proof.Gen.KernelIdeal.Frame
import proofs.«140852_j36429912605244_1_alg».proof.Proof.Spec
import proofs.«140852_j36429912605244_1_alg».proof.Proof.KHostFn

set_option maxRecDepth 16384

noncomputable section

namespace Cert.KernelIdeal.Fold

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The nine host stretches before the first region, followed back from a buffer to the launch memory: each
    operation's result at its own buffer is its function of its operands' contents, and at any other buffer what was
    there. -/
local macro "prefix_results" : tactic =>
  `(tactic| (dsimp only [W9, W8, W7, W6, W5, W4, W3, W2, W1, hostOps0_8, hostOps0_7, hostOps0_6, hostOps0_5, hostOps0_4,
      hostOps0_3, hostOps0_2, hostOps0_1, hostOps0]
             after_results_simp))

set_option maxHeartbeats 1600000 in
theorem W9_v22 (c : Dev nD) : (W9 (F := Ideal) m ρ c (Proc.devRef .tc main_v22) : FVec Ideal S50000x1 .f32)
    = HostFn.invDeg (m ((c.tc : Thread nD τ).loc main_arg12)) := by
  prefix_results <;> rfl
set_option maxHeartbeats 1600000 in
theorem W9_v24 (c : Dev nD) : (W9 (F := Ideal) m ρ c (Proc.devRef .tc main_v24) : FVec Ideal S50000x1 .f32)
    = HostFn.invDeg (m ((c.tc : Thread nD τ).loc main_arg13)) := by
  prefix_results <;> rfl

end Cert.KernelIdeal.Fold

end
-- ==== Proof.KFold.lean ====
/-
  The kernel program's result buffer followed back through @main: the last region's output is the last dense stage
  of the rows moved out of the second region's output, which is the second dense stage of the rows moved out of the
  first region's output; the degree factors and the bias rows are what the host operations before the first region
  leave, untouched by everything after.
-/
import proofs.«140852_j36429912605244_1_alg».proof.Proof.Gen.KernelIdeal.Frame
import proofs.«140852_j36429912605244_1_alg».proof.Proof.Spec
import proofs.«140852_j36429912605244_1_alg».proof.Proof.KHostFn
import proofs.«140852_j36429912605244_1_alg».proof.Proof.KValue0
import proofs.«140852_j36429912605244_1_alg».proof.Proof.KValue1
import proofs.«140852_j36429912605244_1_alg».proof.Proof.KValue2
import proofs.«140852_j36429912605244_1_alg».proof.Proof.KPrefixA
import proofs.«140852_j36429912605244_1_alg».proof.Proof.KPrefixB
import proofs.«140852_j36429912605244_1_alg».proof.Proof.KPrefixC

set_option maxRecDepth 16384

noncomputable section

namespace Cert.KernelIdeal.Fold

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-! ## Through the first region and the first movement of rows -/

/-- The first region leaves the first dense stage of what it entered with in its output. -/
theorem W10_v28 (c : Dev nD) : (W10 (F := Ideal) m ρ c (Proc.devRef .tc main_v28) : FVec Ideal S50000x128 .f32)
    = Cert.Spec.feat1 (m ((c.tc : Thread nD τ).loc main_arg0)) (m ((c.tc : Thread nD τ).loc main_arg2))
        (HostFn.rowOf (m ((c.tc : Thread nD τ).loc main_arg3))) (HostFn.invDeg (m ((c.tc : Thread nD τ).loc main_arg10)))
        (m ((c.tc : Thread nD τ).loc main_arg4)) := by
  refine ((W10_arr m ρ c 5).trans (Region0.final (V9 m ρ) c)).trans ?_
  dsimp only [V9]
  rw [W9_arg0, W9_arg2, W9_v25, W9_v18, W9_arg4]

/-- A buffer that is none of the first region's arrays, carried across it. -/
theorem W10_arg8 (c : Dev nD) : W10 (F := Ideal) m ρ c (Proc.devRef .tc main_arg8) = m ((c.tc : Thread nD τ).loc main_arg8) :=
  (W10_of_ne m ρ c main_arg8 (by decide)).trans (W9_arg8 m ρ c)
theorem W10_arg10 (c : Dev nD) : W10 (F := Ideal) m ρ c (Proc.devRef .tc main_arg10) = m ((c.tc : Thread nD τ).loc main_arg10) :=
  (W10_of_ne m ρ c main_arg10 (by decide)).trans (W9_arg10 m ρ c)
theorem W10_arg11 (c : Dev nD) : W10 (F := Ideal) m ρ c (Proc.devRef .tc main_arg11) = m ((c.tc : Thread nD τ).loc main_arg11) :=
  (W10_of_ne m ρ c main_arg11 (by decide)).trans (W9_arg11 m ρ c)
theorem W10_arg12 (c : Dev nD) : W10 (F := Ideal) m ρ c (Proc.devRef .tc main_arg12) = m ((c.tc : Thread nD τ).loc main_arg12) :=
  (W10_of_ne m ρ c main_arg12 (by decide)).trans (W9_arg12 m ρ c)
theorem W10_arg13 (c : Dev nD) : W10 (F := Ideal) m ρ c (Proc.devRef .tc main_arg13) = m ((c.tc : Thread nD τ).loc main_arg13) :=
  (W10_of_ne m ρ c main_arg13 (by decide)).trans (W9_arg13 m ρ c)
theorem W10_v20 (c : Dev nD) : (W10 (F := Ideal) m ρ c (Proc.devRef .tc main_v20) : FVec Ideal S50000x1 .f32)
    = HostFn.invDeg (m ((c.tc : Thread nD τ).loc main_arg11)) :=
  (W10_of_ne m ρ c main_v20 (by decide)).trans (W9_v20 m ρ c)
theorem W10_v22 (c : Dev nD) : (W10 (F := Ideal) m ρ c (Proc.devRef .tc main_v22) : FVec Ideal S50000x1 .f32)
    = HostFn.invDeg (m ((c.tc : Thread nD τ).loc main_arg12)) :=
  (W10_of_ne m ρ c main_v22 (by decide)).trans (W9_v22 m ρ c)
theorem W10_v24 (c : Dev nD) : (W10 (F := Ideal) m ρ c (Proc.devRef .tc main_v24) : FVec Ideal S50000x1 .f32)
    = HostFn.invDeg (m ((c.tc : Thread nD τ).loc main_arg13)) :=
  (W10_of_ne m ρ c main_v24 (by decide)).trans (W9_v24 m ρ c)
theorem W10_v26 (c : Dev nD) : (W10 (F := Ideal) m ρ c (Proc.devRef .tc main_v26) : FVec Ideal S1x128 .f32)
    = HostFn.rowOf (m ((c.tc : Thread nD τ).loc main_arg5)) :=
  (W10_of_ne m ρ c main_v26 (by decide)).trans (W9_v26 m ρ c)
theorem W10_v27 (c : Dev nD) : (W10 (F := Ideal) m ρ c (Proc.devRef .tc main_v27) : FVec Ideal S1x128 .f32)
    = HostFn.rowOf (m ((c.tc : Thread nD τ).loc main_arg9)) :=
  (W10_of_ne m ρ c main_v27 (by decide)).trans (W9_v27 m ρ c)

local macro "stretch1_results" : tactic => `(tactic| (dsimp only [W11, hostOps1]; after_results))

set_option maxHeartbeats 1600000 in
/-- The host stretch after the first region moves its output's rows along the user-to-item edges. -/
theorem W11_v38 (c : Dev nD) : (W11 (F := Ideal) m ρ c (Proc.devRef .tc main_v38) : FVec Ideal S50000x128 .f32)
    = HostFn.moveRows (W10 (F := Ideal) m ρ c (Proc.devRef .tc main_v28)) (W10 (F := Ideal) m ρ c (Proc.devRef .tc main_arg10))
        (W10 (F := Ideal) m ρ c (Proc.devRef .tc main_arg11)) := by
  stretch1_results <;> rfl

theorem W11_arg8 (c : Dev nD) : W11 (F := Ideal) m ρ c (Proc.devRef .tc main_arg8) = W10 (F := Ideal) m ρ c (Proc.devRef .tc main_arg8) := by
  stretch1_results <;> rfl
theorem W11_arg12 (c : Dev nD) : W11 (F := Ideal) m ρ c (Proc.devRef .tc main_arg12) = W10 (F := Ideal) m ρ c (Proc.devRef .tc main_arg12) := by
  stretch1_results <;> rfl
theorem W11_arg13 (c : Dev nD) : W11 (F := Ideal) m ρ c (Proc.devRef .tc main_arg13) = W10 (F := Ideal) m ρ c (Proc.devRef .tc main_arg13) := by
  stretch1_results <;> rfl
theorem W11_v20 (c : Dev nD) : W11 (F := Ideal) m ρ c (Proc.devRef .tc main_v20) = W10 (F := Ideal) m ρ c (Proc.devRef .tc main_v20) := by
  stretch1_results <;> rfl
theorem W11_v22 (c : Dev nD) : W11 (F := Ideal) m ρ c (Proc.devRef .tc main_v22) = W10 (F := Ideal) m ρ c (Proc.devRef .tc main_v22) := by
  stretch1_results <;> rfl
theorem W11_v24 (c : Dev nD) : W11 (F := Ideal) m ρ c (Proc.devRef .tc main_v24) = W10 (F := Ideal) m ρ c (Proc.devRef .tc main_v24) := by
  stretch1_results <;> rfl
theorem W11_v26 (c : Dev nD) : W11 (F := Ideal) m ρ c (Proc.devRef .tc main_v26) = W10 (F := Ideal) m ρ c (Proc.devRef .tc main_v26) := by
  stretch1_results <;> rfl
theorem W11_v27 (c : Dev nD) : W11 (F := Ideal) m ρ c (Proc.devRef .tc main_v27) = W10 (F := Ideal) m ρ c (Proc.devRef .tc main_v27) := by
  stretch1_results <;> rfl

/-! ## Through the second region and the second movement of rows -/

/-- The second region leaves the second dense stage of what it entered with in its output. -/
theorem W12_v39 (c : Dev nD) : (W12 (F := Ideal) m ρ c (Proc.devRef .tc main_v39) : FVec Ideal S50000x128 .f32)
    = Cert.Spec.feat2
        (HostFn.moveRows
          (Cert.Spec.feat1 (m ((c.tc : Thread nD τ).loc main_arg0)) (m ((c.tc : Thread nD τ).loc main_arg2))
            (HostFn.rowOf (m ((c.tc : Thread nD τ).loc main_arg3))) (HostFn.invDeg (m ((c.tc : Thread nD τ).loc main_arg10)))
            (m ((c.tc : Thread nD τ).loc main_arg4)))
          (m ((c.tc : Thread nD τ).loc main_arg10)) (m ((c.tc : Thread nD τ).loc main_arg11)))
        (HostFn.invDeg (m ((c.tc : Thread nD τ).loc main_arg11))) (HostFn.rowOf (m ((c.tc : Thread nD τ).loc main_arg5)))
        (HostFn.invDeg (m ((c.tc : Thread nD τ).loc main_arg12))) (m ((c.tc : Thread nD τ).loc main_arg8)) := by
  refine ((W12_arr m ρ c 5).trans (Region1.final (V11 m ρ) c)).trans ?_
  dsimp only [V11]
  rw [W11_v38, W10_v28, W10_arg10, W10_arg11, W11_v20, W10_v20, W11_v26, W10_v26, W11_v22, W10_v22, W11_arg8, W10_arg8]

/-- A buffer that is none of the second region's arrays, carried across it and the stretch before it. -/
theorem W12_arg12 (c : Dev nD) : W12 (F := Ideal) m ρ c (Proc.devRef .tc main_arg12) = m ((c.tc : Thread nD τ).loc main_arg12) :=
  (W12_of_ne m ρ c main_arg12 (by decide)).trans ((W11_arg12 m ρ c).trans (W10_arg12 m ρ c))
theorem W12_arg13 (c : Dev nD) : W12 (F := Ideal) m ρ c (Proc.devRef .tc main_arg13) = m ((c.tc : Thread nD τ).loc main_arg13) :=
  (W12_of_ne m ρ c main_arg13 (by decide)).trans ((W11_arg13 m ρ c).trans (W10_arg13 m ρ c))
theorem W12_v24 (c : Dev nD) : (W12 (F := Ideal) m ρ c (Proc.devRef .tc main_v24) : FVec Ideal S50000x1 .f32)
    = HostFn.invDeg (m ((c.tc : Thread nD τ).loc main_arg13)) :=
  (W12_of_ne m ρ c main_v24 (by decide)).trans ((W11_v24 m ρ c).trans (W10_v24 m ρ c))
theorem W12_v27 (c : Dev nD) : (W12 (F := Ideal) m ρ c (Proc.devRef .tc main_v27) : FVec Ideal S1x128 .f32)
    = HostFn.rowOf (m ((c.tc : Thread nD τ).loc main_arg9)) :=
  (W12_of_ne m ρ c main_v27 (by decide)).trans ((W11_v27 m ρ c).trans (W10_v27 m ρ c))

local macro "stretch2_results" : tactic => `(tactic| (dsimp only [W13, hostOps2]; after_results))

set_option maxHeartbeats 1600000 in
/-- The host stretch after the second region moves its output's rows along the item-to-user edges. -/
theorem W13_v49 (c : Dev nD) : (W13 (F := Ideal) m ρ c (Proc.devRef .tc main_v49) : FVec Ideal S50000x128 .f32)
    = HostFn.moveRows (W12 (F := Ideal) m ρ c (Proc.devRef .tc main_v39)) (W12 (F := Ideal) m ρ c (Proc.devRef .tc main_arg12))
        (W12 (F := Ideal) m ρ c (Proc.devRef .tc main_arg13)) := by
  stretch2_results <;> rfl
theorem W13_v24 (c : Dev nD) : W13 (F := Ideal) m ρ c (Proc.devRef .tc main_v24) = W12 (F := Ideal) m ρ c (Proc.devRef .tc main_v24) := by
  stretch2_results <;> rfl
theorem W13_v27 (c : Dev nD) : W13 (F := Ideal) m ρ c (Proc.devRef .tc main_v27) = W12 (F := Ideal) m ρ c (Proc.devRef .tc main_v27) := by
  stretch2_results <;> rfl

/-- The kernel program's result as one function of its argument arrays. -/
def result (c : Dev nD) : FVec Ideal S50000x128 .f32 :=
  Cert.Spec.whole HostFn.invDeg HostFn.moveRows HostFn.rowOf
    (m ((c.tc : Thread nD τ).loc main_arg0)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12)) (m ((c.tc : Thread nD τ).loc main_arg13))

/-- What the fold of @main's segments leaves in the result buffer is that function of the launch memory. -/
theorem result_eq (c : Dev nD) : W14 (F := Ideal) m ρ c (Proc.devRef .tc main_v50) = result m c := by
  refine ((W14_arr m ρ c 3).trans (Region2.final (V13 m ρ) c)).trans ?_
  dsimp only [V13]
  rw [W13_v49, W12_v39, W12_arg12, W12_arg13, W13_v24, W12_v24, W13_v27, W12_v27]
  rfl

end Cert.KernelIdeal.Fold

end
-- ==== Proof.RefSide.lean ====
/-
  The reference program's result as the same composition of the three dense stages and the host-side functions.
-/
import proofs.«140852_j36429912605244_1_alg».proof.Proof.Gen.ReferenceIdeal.Run
import proofs.«140852_j36429912605244_1_alg».proof.Proof.Gen.ReferenceIdeal.Read
import proofs.«140852_j36429912605244_1_alg».proof.Proof.Spec
import proofs.«140852_j36429912605244_1_alg».proof.Proof.RHostFn

set_option maxRecDepth 16384

noncomputable section

namespace Cert.ReferenceIdeal.RefValue

open Cert.ReferenceIdeal Cert.ReferenceIdeal.Gen
open Idealize.ShloMosaic Idealize.ShloMosaic.TcCoe Idealize.SL.Sem
open Idealize.ShloMosaic.ValueIdx

/-! ### The three dense stages, index by index -/

/-- The first dense stage: the embedding product plus its bias row, scaled by the node's factor, projected. -/
theorem feat1_eq (x0 : (⟨S50000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x10 : (⟨S500000, .i32⟩ : BufTy).Contents (Elt Ideal)) :
    Read.val_main_v17 (F := Ideal) x0 x2 x3 x4 x10
      = Cert.Spec.feat1 x0 x2 (Read.val_main_v1 (F := Ideal) x3) (Read.val_main_v14 (F := Ideal) x10) x4 := by
  funext i
  obtain ⟨r, j, rfl⟩ : ∃ (r : Fin 50000) (j : Fin 128), i = ix2 r j := ⟨i 0, i 1, eq_ix2 i⟩
  rw [Read.val_main_v17_apply]
  show _ = Cert.Spec.feat1At x0 x2 (Read.val_main_v1 (F := Ideal) x3) (Read.val_main_v14 (F := Ideal) x10) x4 r j
  unfold Cert.Spec.feat1At
  refine Finset.sum_congr rfl fun k _ => ?_
  rw [Read.val_main_v16_apply, Read.val_main_v3_apply, Read.val_main_v0_apply, Read.val_main_v2_apply, Read.val_main_v15_apply]
  have e1 : ∀ l : Fin 128, Read.lidx_main_v0 (Read.lidx_main_v17 (ix2 r j) k) l = ix2 r l :=
    fun l => funext fun a => Fin.ext (by match a with | ⟨0, _⟩ => rfl | ⟨1, _⟩ => rfl)
  have e2 : ∀ l : Fin 128, Read.ridx_main_v0 (Read.lidx_main_v17 (ix2 r j) k) l = ix2 l k :=
    fun l => funext fun a => Fin.ext (by match a with | ⟨0, _⟩ => rfl | ⟨1, _⟩ => rfl)
  have e3 : Read.idx_main_v2 (Read.lidx_main_v17 (ix2 r j) k) = ix2 0 k :=
    funext fun a => Fin.ext (by match a with | ⟨0, _⟩ => rfl | ⟨1, _⟩ => rfl)
  have e4 : Read.idx_main_v15 (Read.lidx_main_v17 (ix2 r j) k) = ix2 r 0 :=
    funext fun a => Fin.ext (by match a with | ⟨0, _⟩ => rfl | ⟨1, _⟩ => rfl)
  have e5 : Read.ridx_main_v17 (ix2 r j) k = ix2 k j :=
    funext fun a => Fin.ext (by match a with | ⟨0, _⟩ => rfl | ⟨1, _⟩ => rfl)
  simp only [e1, e2, e3, e4, e5]
  rfl

/-- The second dense stage: the aggregated row normalised, biased, rectified, scaled and projected. -/
theorem feat2_eq (x0 : (⟨S50000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x8 : (⟨S128x128, .f32⟩ : BufTy).Contents (Elt Ideal)) (x10 x11 x12 : (⟨S500000, .i32⟩ : BufTy).Contents (Elt Ideal)) :
    Read.val_main_v81 (F := Ideal) x0 x2 x3 x4 x5 x8 x10 x11 x12
      = Cert.Spec.feat2 (Read.val_main_v27 (F := Ideal) x0 x2 x3 x4 x10 x11) (Read.val_main_v29 (F := Ideal) x11)
          (Read.val_main_v32 (F := Ideal) x5) (Read.val_main_v78 (F := Ideal) x12) x8 := by
  funext i
  obtain ⟨r, j, rfl⟩ : ∃ (r : Fin 50000) (j : Fin 128), i = ix2 r j := ⟨i 0, i 1, eq_ix2 i⟩
  rw [Read.val_main_v81_apply]
  show _ = Cert.Spec.feat2At (Read.val_main_v27 (F := Ideal) x0 x2 x3 x4 x10 x11) (Read.val_main_v29 (F := Ideal) x11)
          (Read.val_main_v32 (F := Ideal) x5) (Read.val_main_v78 (F := Ideal) x12) x8 r j
  unfold Cert.Spec.feat2At Cert.Spec.zeroF
  refine Finset.sum_congr rfl fun k _ => ?_
  rw [Read.val_main_v80_apply, Read.val_main_v35_apply, Read.val_main_v34_apply, Read.val_main_v31_apply, Read.val_main_v30_apply,
    Read.val_main_v33_apply, Read.val_main_call2_v0_apply, Read.val_main_call2_cst_apply, Read.val_main_v79_apply]
  have e1 : Read.lidx_main_v81 (ix2 r j) k = ix2 r k :=
    funext fun a => Fin.ext (by match a with | ⟨0, _⟩ => rfl | ⟨1, _⟩ => rfl)
  have e2 : Read.idx_main_v30 (Read.lidx_main_v81 (ix2 r j) k) = ix2 r 0 :=
    funext fun a => Fin.ext (by match a with | ⟨0, _⟩ => rfl | ⟨1, _⟩ => rfl)
  have e3 : Read.idx_main_v33 (Read.lidx_main_v81 (ix2 r j) k) = ix2 0 k :=
    funext fun a => Fin.ext (by match a with | ⟨0, _⟩ => rfl | ⟨1, _⟩ => rfl)
  have e4 : Read.idx_main_v79 (Read.lidx_main_v81 (ix2 r j) k) = ix2 r 0 :=
    funext fun a => Fin.ext (by match a with | ⟨0, _⟩ => rfl | ⟨1, _⟩ => rfl)
  have e5 : Read.ridx_main_v81 (ix2 r j) k = ix2 k j :=
    funext fun a => Fin.ext (by match a with | ⟨0, _⟩ => rfl | ⟨1, _⟩ => rfl)
  rw [e2, e3, e4, e5, e1]
  rfl

/-- The last stage: the aggregated row normalised and biased. -/
theorem out_eq (x0 : (⟨S50000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x8 : (⟨S128x128, .f32⟩ : BufTy).Contents (Elt Ideal)) (x9 : (⟨S128, .f32⟩ : BufTy).Contents (Elt Ideal)) (x10 x11 x12 x13 : (⟨S500000, .i32⟩ : BufTy).Contents (Elt Ideal)) :
    Read.val_main_v98 (F := Ideal) x0 x2 x3 x4 x5 x8 x9 x10 x11 x12 x13
      = Cert.Spec.out (Read.val_main_v91 (F := Ideal) x0 x2 x3 x4 x5 x8 x10 x11 x12 x13) (Read.val_main_v93 (F := Ideal) x13)
          (Read.val_main_v96 (F := Ideal) x9) := by
  funext i
  obtain ⟨r, j, rfl⟩ : ∃ (r : Fin 50000) (j : Fin 128), i = ix2 r j := ⟨i 0, i 1, eq_ix2 i⟩
  rw [Read.val_main_v98_apply, Read.val_main_v95_apply, Read.val_main_v94_apply, Read.val_main_v97_apply]
  show _ = Cert.Spec.outAt (Read.val_main_v91 (F := Ideal) x0 x2 x3 x4 x5 x8 x10 x11 x12 x13) (Read.val_main_v93 (F := Ideal) x13)
          (Read.val_main_v96 (F := Ideal) x9) r j
  unfold Cert.Spec.outAt
  have e1 : Read.idx_main_v94 (ix2 r j) = ix2 r 0 :=
    funext fun a => Fin.ext (by match a with | ⟨0, _⟩ => rfl | ⟨1, _⟩ => rfl)
  have e2 : Read.idx_main_v97 (ix2 r j) = ix2 0 j :=
    funext fun a => Fin.ext (by match a with | ⟨0, _⟩ => rfl | ⟨1, _⟩ => rfl)
  rw [e1, e2]
  rfl

/-! ### The host-side functions: the run's terms are the named functions of whole arrays -/

/-- Rows of the first stage moved along the user-to-item edges. -/
theorem move1_eq (x0 : (⟨S50000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x10 x11 : (⟨S500000, .i32⟩ : BufTy).Contents (Elt Ideal)) :
    Read.val_main_v27 (F := Ideal) x0 x2 x3 x4 x10 x11
      = HostFn.moveRows (Read.val_main_v17 (F := Ideal) x0 x2 x3 x4 x10) x10 x11 := by
  unfold Read.val_main_v27 Read.val_main_v24
  generalize Read.val_main_v17 (F := Ideal) x0 x2 x3 x4 x10 = y
  rfl

/-- Rows of the second stage moved along the item-to-user edges. -/
theorem move2_eq (x0 : (⟨S50000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x8 : (⟨S128x128, .f32⟩ : BufTy).Contents (Elt Ideal)) (x10 x11 x12 x13 : (⟨S500000, .i32⟩ : BufTy).Contents (Elt Ideal)) :
    Read.val_main_v91 (F := Ideal) x0 x2 x3 x4 x5 x8 x10 x11 x12 x13
      = HostFn.moveRows (Read.val_main_v81 (F := Ideal) x0 x2 x3 x4 x5 x8 x10 x11 x12) x12 x13 := by
  unfold Read.val_main_v91 Read.val_main_v88
  generalize Read.val_main_v81 (F := Ideal) x0 x2 x3 x4 x5 x8 x10 x11 x12 = y
  rfl

/-- The four degree factors. -/
theorem inv14_eq (x10 : (⟨S500000, .i32⟩ : BufTy).Contents (Elt Ideal)) : Read.val_main_v14 (F := Ideal) x10 = HostFn.invDeg x10 := rfl
theorem inv29_eq (x11 : (⟨S500000, .i32⟩ : BufTy).Contents (Elt Ideal)) : Read.val_main_v29 (F := Ideal) x11 = HostFn.invDeg x11 := rfl
theorem inv78_eq (x12 : (⟨S500000, .i32⟩ : BufTy).Contents (Elt Ideal)) : Read.val_main_v78 (F := Ideal) x12 = HostFn.invDeg x12 := rfl
theorem inv93_eq (x13 : (⟨S500000, .i32⟩ : BufTy).Contents (Elt Ideal)) : Read.val_main_v93 (F := Ideal) x13 = HostFn.invDeg x13 := rfl

/-- The three biases as rows. -/
theorem row1_eq (x3 : (⟨S128, .f32⟩ : BufTy).Contents (Elt Ideal)) : Read.val_main_v1 (F := Ideal) x3 = HostFn.rowOf x3 := rfl
theorem row32_eq (x5 : (⟨S128, .f32⟩ : BufTy).Contents (Elt Ideal)) : Read.val_main_v32 (F := Ideal) x5 = HostFn.rowOf x5 := rfl
theorem row96_eq (x9 : (⟨S128, .f32⟩ : BufTy).Contents (Elt Ideal)) : Read.val_main_v96 (F := Ideal) x9 = HostFn.rowOf x9 := rfl

/-- The last stage of the run, over variables, is the whole composition. -/
theorem whole_eq (x0 : (⟨S50000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x8 : (⟨S128x128, .f32⟩ : BufTy).Contents (Elt Ideal)) (x9 : (⟨S128, .f32⟩ : BufTy).Contents (Elt Ideal)) (x10 x11 x12 x13 : (⟨S500000, .i32⟩ : BufTy).Contents (Elt Ideal)) :
    Read.val_main_v98 (F := Ideal) x0 x2 x3 x4 x5 x8 x9 x10 x11 x12 x13
      = Cert.Spec.whole HostFn.invDeg HostFn.moveRows HostFn.rowOf x0 x2 x3 x4 x5 x8 x9 x10 x11 x12 x13 := by
  rw [out_eq, move2_eq, feat2_eq, move1_eq, feat1_eq, inv14_eq, inv29_eq, inv78_eq, inv93_eq, row1_eq, row32_eq, row96_eq]
  rfl

variable (m : (ℓ : Loc nD τ sig) → Buf (Elt Ideal) ℓ)

/-- The reference's result as one function of its argument arrays. -/
def result (c : Dev nD) : FVec Ideal S50000x128 .f32 :=
  Cert.Spec.whole HostFn.invDeg HostFn.moveRows HostFn.rowOf
    (m ((c.tc : Thread nD τ).loc main_arg0)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12)) (m ((c.tc : Thread nD τ).loc main_arg13))

/-- The run's composed term is that function. -/
theorem result_eq (c : Dev nD) : Cert.ReferenceIdeal.Value.res_main_v98 (F := Ideal) m c = result m c := by
  rw [Read.val_main_v98_eq, whole_eq]
  rfl

end Cert.ReferenceIdeal.RefValue

end
-- ==== Proof.lean ====
/-
  The certificate of a two-layer graph convolution over a bipartite user/item graph against its jnp reference.

  Both programs compute the same composition (Proof/Spec.lean, `Cert.Spec.whole`): three dense stages, each a
  row-wise affine map and a product with a 128 x 128 weight matrix, joined by two movements of rows along the edges
  (a gather at the source endpoint, a segment sum at the destination endpoint), with every node's degree factor the
  reciprocal square root of its clipped edge count.  The kernel program computes each dense stage in a region of 25
  row tiles; the reference computes it with whole-array host operations.  At the extended reals a change of float
  format is the identity, a matrix product is a plain finite sum, and both programs apply the SAME host gather and
  scatter-add to the same rows, so no law of arithmetic beyond the definitions is needed and the precondition is
  never opened.

  - the kernel's run with its result named: Proof/KernelRun.lean; what each region leaves: Proof/KValue0..2.lean;
    what the host operations before the first region leave: Proof/KPrefixA..C.lean; the result followed back through
    @main: Proof/KFold.lean;
  - the reference's composed term as the same composition: Proof/RefSide.lean;
  - here: the host-side functions of the two programs are the same functions, and the five claims.
-/
import proofs.«140852_j36429912605244_1_alg».proof.Defs
import proofs.«140852_j36429912605244_1_alg».proof.Proof.Gen.Kernel
import proofs.«140852_j36429912605244_1_alg».proof.Proof.Gen.Kernel.Frame
import proofs.«140852_j36429912605244_1_alg».proof.Proof.Gen.KernelIdeal
import proofs.«140852_j36429912605244_1_alg».proof.Proof.Gen.KernelIdeal.Frame
import proofs.«140852_j36429912605244_1_alg».proof.Proof.Gen.ReferenceIdeal
import proofs.«140852_j36429912605244_1_alg».proof.Proof.Gen.ReferenceIdeal.Run
import proofs.«140852_j36429912605244_1_alg».proof.Proof.Gen.ReferenceIdeal.Read
import proofs.«140852_j36429912605244_1_alg».proof.Proof.Gen.Pre_finite_inputs
import proofs.«140852_j36429912605244_1_alg».proof.Proof.Spec
import proofs.«140852_j36429912605244_1_alg».proof.Proof.KHostFn
import proofs.«140852_j36429912605244_1_alg».proof.Proof.RHostFn
import proofs.«140852_j36429912605244_1_alg».proof.Proof.KernelRun
import proofs.«140852_j36429912605244_1_alg».proof.Proof.KFold
import proofs.«140852_j36429912605244_1_alg».proof.Proof.RefSide
import Idealize.ShloMosaic.Lib.Pipeline.Value
import Idealize.ShloMosaic.Lib.ValueIdx
import Idealize.ShloMosaic.Lib.ValueLayout
import Idealize.ShloMosaic.Adequacy
import Idealize.ShloMosaic.Init

noncomputable section

namespace Cert.Proof

open Idealize.ShloMosaic Idealize.ShloMosaic.TcCoe Idealize.SL.Sem Idealize.ShloMosaic.ValueIdx

/-! ## The two programs' host-side functions are the same functions -/

/-- The degree factor: the two programs state the same operations, over records with the same fields. -/
theorem invDeg_eq : Cert.KernelIdeal.HostFn.invDeg = Cert.ReferenceIdeal.HostFn.invDeg := rfl

/-- The movement of rows along edges: the same gather and scatter-add, over records with the same fields. -/
theorem moveRows_eq : Cert.KernelIdeal.HostFn.moveRows = Cert.ReferenceIdeal.HostFn.moveRows := rfl

/-- A bias as a row: the kernel program reshapes the vector to one row, the reference broadcasts it along a new
    leading axis; at `(0, k)` both read the vector at `k`. -/
theorem rowOf_eq : Cert.KernelIdeal.HostFn.rowOf = Cert.ReferenceIdeal.HostFn.rowOf := by
  funext b j
  obtain ⟨u, k, rfl⟩ : ∃ (u : Fin 1) (k : Fin 128), j = ix2 u k := ⟨j 0, j 1, eq_ix2 j⟩
  unfold Cert.KernelIdeal.HostFn.rowOf Cert.ReferenceIdeal.HostFn.rowOf
  rw [ValueIdx.shapeCast_a_1a_apply]
  refine (broadcastInDim_apply _ _ b (ix2 u k) (ix1 k) (fun a => ?_)).symm
  match a with
  | ⟨0, _⟩ => show k.val = if (128 : Nat) = 1 then 0 else k.val; rw [if_neg (by decide)]

/-! ## The claims -/

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the result array at `Cert.Spec.whole` of the
    arguments: the kernel's by following its result buffer back through @main, the reference's by reading its
    composed term; the host-side functions the two cite are the same. -/
theorem algebraic : Cert.algebraic_KernelIdeal_ReferenceIdeal := by
  intro m ρ m' ρ' _ hagree
  refine ⟨fun c => Cert.KernelIdeal.Fold.result m c,
    (θ_run Cert.KernelIdeal.defs _ _).mono (fun _ h c => ⟨(h c).1.trans (Cert.KernelIdeal.Fold.result_eq m ρ c), (h c).2⟩)
      (Cert.KernelIdeal.Named.run_named (F := Ideal) m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq]
  unfold Cert.ReferenceIdeal.RefValue.result Cert.KernelIdeal.Fold.result
  obtain ⟨h0, -, h2, h3, h4, h5, -, -, h8, h9, h10, h11, h12, h13⟩ := hagree c
  rw [h0, h2, h3, h4, h5, h8, h9, h10, h11, h12, h13, invDeg_eq, moveRows_eq, rowOf_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
